-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S4x256x128x128 : Shape := ⟨4, ![4, 256, 128, 128]⟩
abbrev S256x256x1x1 : Shape := ⟨4, ![256, 256, 1, 1]⟩
abbrev S256 : Shape := ⟨1, ![256]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel
  bcast_S_S4x256x128x128 : S_.BroadcastsInDim S4x256x128x128 (![] : Fin 0 → Fin S4x256x128x128.rank)
  reducesTo_S4x256x128x128_S_d0_1_2_3 : S4x256x128x128.ReducesTo [0, 1, 2, 3] S_
  bcast_S_S256x256x1x1 : S_.BroadcastsInDim S256x256x1x1 (![] : Fin 0 → Fin S256x256x1x1.rank)
  reducesTo_S256x256x1x1_S_d0_1_2_3 : S256x256x1x1.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4x256x64x64 .f32) (main_arg1 : FVec F S4x256x128x128 .f32) (main_arg2 : FVec F S256x256x1x1 .f32) (main_arg3 : FVec F S256 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S4x256x128x128 .f32 := Host.absf main_arg1
  let main_cst_0 : FVec F S_ .f32 := constant S_ .f32 0x7F800000#32
  let main_v5 : FVec F S4x256x128x128 .f32 := broadcastInDim S4x256x128x128 ![] bcast_S_S4x256x128x128 main_cst_0
  let main_v6 : IVec S4x256x128x128 1 := cmpf .olt main_v4 main_v5
  let main_c_1 : IVec S_ 1 := constantI S_ 1 1#1
  let main_v7 : IVec S_ 1 := (fun x v => Host.reduce IntOp.andi x v reducesTo_S4x256x128x128_S_d0_1_2_3 h_S_) main_v6 main_c_1
  let main_v8 : IVec S_ 1 := andi main_v3 main_v7
  let main_v9 : FVec F S256x256x1x1 .f32 := Host.absf main_arg2
  let main_cst_2 : FVec F S_ .f32 := constant S_ .f32 0x7F800000#32
  let main_v10 : FVec F S256x256x1x1 .f32 := broadcastInDim S256x256x1x1 ![] bcast_S_S256x256x1x1 main_cst_2
  let main_v11 : IVec S256x256x1x1 1 := cmpf .olt main_v9 main_v10
  let main_c_3 : IVec S_ 1 := constantI S_ 1 1#1
  let main_v12 : IVec S_ 1 := (fun x v => Host.reduce IntOp.andi x v reducesTo_S256x256x1x1_S_d0_1_2_3 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4x256x64x64 : Shape := ⟨4, ![4, 256, 64, 64]⟩
abbrev S4x256x128x128 : Shape := ⟨4, ![4, 256, 128, 128]⟩
abbrev S256x256x1x1 : Shape := ⟨4, ![256, 256, 1, 1]⟩
abbrev S256 : Shape := ⟨1, ![256]⟩
abbrev S256x256 : Shape := ⟨2, ![256, 256]⟩
abbrev S64x64 : Shape := ⟨2, ![64, 64]⟩
abbrev S_ : Shape := ⟨0, ![]⟩
abbrev S64x64x2 : Shape := ⟨3, ![64, 64, 2]⟩
abbrev S64x128 : Shape := ⟨2, ![64, 128]⟩
abbrev S256x1 : Shape := ⟨2, ![256, 1]⟩
abbrev S256x128 : Shape := ⟨2, ![256, 128]⟩
abbrev S1x256x8x64 : Shape := ⟨4, ![1, 256, 8, 64]⟩
abbrev S1x256x16x128 : Shape := ⟨4, ![1, 256, 16, 128]⟩
abbrev S1x256x1x64 : Shape := ⟨4, ![1, 256, 1, 64]⟩
abbrev S256x64 : Shape := ⟨2, ![256, 64]⟩
abbrev S1x256x1x128 : Shape := ⟨4, ![1, 256, 1, 128]⟩

abbrev nBuf : Space → Nat
  | .hbm => 17
  | .vmem => 9
  | .smem => 0
  | _ => 0

abbrev bufTy : (tb : Table) → Fin (tcTables nBuf tb) → BufTy
  | .hbm, ⟨0, _⟩ => ⟨S4x256x64x64, .f32⟩
  | .hbm, ⟨1, _⟩ => ⟨S4x256x128x128, .f32⟩
  | .hbm, ⟨2, _⟩ => ⟨S256x256x1x1, .f32⟩
  | .hbm, ⟨3, _⟩ => ⟨S256, .f32⟩
  | .hbm, ⟨4, _⟩ => ⟨S256x256, .f32⟩
  | .hbm, ⟨5, _⟩ => ⟨S64x64, .i32⟩
  | .hbm, ⟨6, _⟩ => ⟨S64x64, .i32⟩
  | .hbm, ⟨7, _⟩ => ⟨S_, .i32⟩
  | .hbm, ⟨8, _⟩ => ⟨S64x64, .i32⟩
  | .hbm, ⟨9, _⟩ => ⟨S64x64, .i32⟩
  | .hbm, ⟨10, _⟩ => ⟨S64x64, .i1⟩
  | .hbm, ⟨11, _⟩ => ⟨S64x64, .f32⟩
  | .hbm, ⟨12, _⟩ => ⟨S64x64x2, .f32⟩
  | .hbm, ⟨13, _⟩ => ⟨S64x128, .f32⟩
  | .hbm, ⟨14, _⟩ => ⟨S256x1, .f32⟩
  | .hbm, ⟨15, _⟩ => ⟨S256x128, .f32⟩
  | .hbm, ⟨16, _⟩ => ⟨S4x256x128x128, .f32⟩
  | .local _ .vmem, ⟨0, _⟩ => ⟨S1x256x8x64, .f32⟩
  | .local _ .vmem, ⟨1, _⟩ => ⟨S1x256x8x64, .f32⟩
  | .local _ .vmem, ⟨2, _⟩ => ⟨S1x256x16x128, .f32⟩
  | .local _ .vmem, ⟨3, _⟩ => ⟨S1x256x16x128, .f32⟩
  | .local _ .vmem, ⟨4, _⟩ => ⟨S256x256, .f32⟩
  | .local _ .vmem, ⟨5, _⟩ => ⟨S64x128, .f32⟩
  | .local _ .vmem, ⟨6, _⟩ => ⟨S256x128, .f32⟩
  | .local _ .vmem, ⟨7, _⟩ => ⟨S1x256x16x128, .f32⟩
  | .local _ .vmem, ⟨8, _⟩ => ⟨S1x256x16x128, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S256x256x1x1_S256x256 : S256x256x1x1.ShapeCasts S256x256
  bcast_S_S64x64 : S_.BroadcastsInDim S64x64 (![] : Fin 0 → Fin S64x64.rank)
  bcast_S64x64_S64x64x2_0_1 : S64x64.BroadcastsInDim S64x64x2 (![0, 1] : Fin 2 → Fin S64x64x2.rank)
  shapeCasts_S64x64x2_S64x128 : S64x64x2.ShapeCasts S64x128
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256x8x64_S1x256x1x64_0_0_0_0 : ∀ a, (![0, 0, 0, 0] : Fin 4 → Nat) a + S1x256x1x64.size a ≤ S1x256x8x64.size a
  h_S1x256x1x64 : 0 < S1x256x1x64.numel
  shapeCasts_S1x256x1x64_S256x64 : S1x256x1x64.ShapeCasts S256x64
  inb_S1x256x16x128_S1x256x1x128_0_0_0_0 : ∀ a, (![0, 0, 0, 0] : Fin 4 → Nat) a + S1x256x1x128.size a ≤ S1x256x16x128.size a
  h_S1x256x1x128 : 0 < S1x256x1x128.numel
  shapeCasts_S1x256x1x128_S256x128 : S1x256x1x128.ShapeCasts S256x128
  shapeCasts_S256x128_S1x256x1x128 : S256x128.ShapeCasts S1x256x1x128
  inb_S1x256x16x128_S1x256x1x128_0_0_1_0 : ∀ a, (![0, 0, 1, 0] : Fin 4 → Nat) a + S1x256x1x128.size a ≤ S1x256x16x128.size a
  inb_S1x256x8x64_S1x256x1x64_0_0_1_0 : ∀ a, (![0, 0, 1, 0] : Fin 4 → Nat) a + S1x256x1x64.size a ≤ S1x256x8x64.size a
  inb_S1x256x16x128_S1x256x1x128_0_0_2_0 : ∀ a, (![0, 0, 2, 0] : Fin 4 → Nat) a + S1x256x1x128.size a ≤ S1x256x16x128.size a
  inb_S1x256x16x128_S1x256x1x128_0_0_3_0 : ∀ a, (![0, 0, 3, 0] : Fin 4 → Nat) a + S1x256x1x128.size a ≤ S1x256x16x128.size a
  inb_S1x256x8x64_S1x256x1x64_0_0_2_0 : ∀ a, (![0, 0, 2, 0] : Fin 4 → Nat) a + S1x256x1x64.size a ≤ S1x256x8x64.size a
  inb_S1x256x16x128_S1x256x1x128_0_0_4_0 : ∀ a, (![0, 0, 4, 0] : Fin 4 → Nat) a + S1x256x1x128.size a ≤ S1x256x16x128.size a
  inb_S1x256x16x128_S1x256x1x128_0_0_5_0 : ∀ a, (![0, 0, 5, 0] : Fin 4 → Nat) a + S1x256x1x128.size a ≤ S1x256x16x128.size a
  inb_S1x256x8x64_S1x256x1x64_0_0_3_0 : ∀ a, (![0, 0, 3, 0] : Fin 4 → Nat) a + S1x256x1x64.size a ≤ S1x256x8x64.size a
  inb_S1x256x16x128_S1x256x1x128_0_0_6_0 : ∀ a, (![0, 0, 6, 0] : Fin 4 → Nat) a + S1x256x1x128.size a ≤ S1x256x16x128.size a
  inb_S1x256x16x128_S1x256x1x128_0_0_7_0 : ∀ a, (![0, 0, 7, 0] : Fin 4 → Nat) a + S1x256x1x128.size a ≤ S1x256x16x128.size a
  inb_S1x256x8x64_S1x256x1x64_0_0_4_0 : ∀ a, (![0, 0, 4, 0] : Fin 4 → Nat) a + S1x256x1x64.size a ≤ S1x256x8x64.size a
  inb_S1x256x16x128_S1x256x1x128_0_0_8_0 : ∀ a, (![0, 0, 8, 0] : Fin 4 → Nat) a + S1x256x1x128.size a ≤ S1x256x16x128.size a
  inb_S1x256x16x128_S1x256x1x128_0_0_9_0 : ∀ a, (![0, 0, 9, 0] : Fin 4 → Nat) a + S1x256x1x128.size a ≤ S1x256x16x128.size a
  inb_S1x256x8x64_S1x256x1x64_0_0_5_0 : ∀ a, (![0, 0, 5, 0] : Fin 4 → Nat) a + S1x256x1x64.size a ≤ S1x256x8x64.size a
  inb_S1x256x16x128_S1x256x1x128_0_0_10_0 : ∀ a, (![0, 0, 10, 0] : Fin 4 → Nat) a + S1x256x1x128.size a ≤ S1x256x16x128.size a
  inb_S1x256x16x128_S1x256x1x128_0_0_11_0 : ∀ a, (![0, 0, 11, 0] : Fin 4 → Nat) a + S1x256x1x128.size a ≤ S1x256x16x128.size a
  inb_S1x256x8x64_S1x256x1x64_0_0_6_0 : ∀ a, (![0, 0, 6, 0] : Fin 4 → Nat) a + S1x256x1x64.size a ≤ S1x256x8x64.size a
  inb_S1x256x16x128_S1x256x1x128_0_0_12_0 : ∀ a, (![0, 0, 12, 0] : Fin 4 → Nat) a + S1x256x1x128.size a ≤ S1x256x16x128.size a
  inb_S1x256x16x128_S1x256x1x128_0_0_13_0 : ∀ a, (![0, 0, 13, 0] : Fin 4 → Nat) a + S1x256x1x128.size a ≤ S1x256x16x128.size a
  inb_S1x256x8x64_S1x256x1x64_0_0_7_0 : ∀ a, (![0, 0, 7, 0] : Fin 4 → Nat) a + S1x256x1x64.size a ≤ S1x256x8x64.size a
  inb_S1x256x16x128_S1x256x1x128_0_0_14_0 : ∀ a, (![0, 0, 14, 0] : Fin 4 → Nat) a + S1x256x1x128.size a ≤ S1x256x16x128.size a
  inb_S1x256x16x128_S1x256x1x128_0_0_15_0 : ∀ a, (![0, 0, 15, 0] : Fin 4 → Nat) a + S1x256x1x128.size a ≤ S1x256x16x128.size a
  dot_S256x64_S64x128_S256x128_1_0_0_1_n_n_wf : DotDims.WF S256x64 S64x128 S256x128 [1] [0] [0] [1] [] []
  dot_S256x256_S256x128_S256x128_1_0_0_1_n_n_wf : DotDims.WF S256x256 S256x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8x64.size a ≤ S4x256x64x64.size a
  hwx0_0 : ∀ i : grid0.Coords, EltTy.bits .f32 = 32 ∨ (Rect.block (s := S4x256x64x64) S1x256x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x16x128.size a ≤ S4x256x128x128.size a
  hwx0_1 : ∀ i : grid0.Coords, EltTy.bits .f32 = 32 ∨ (Rect.block (s := S4x256x128x128) S1x256x16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x16x128.size a ≤ S4x256x128x128.size a
  hwx0_5 : ∀ i : grid0.Coords, EltTy.bits .f32 = 32 ∨ (Rect.block (s := S4x256x128x128) S1x256x16x128.size (cc0_transform_5 i) (hinb0_5 i)).WholeWords (EltTy.packing .f32)

variable [Facts₀]

def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_arg0) S1x256x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x256x16x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x256x64x64 : Shape := ⟨4, ![4, 256, 64, 64]⟩
abbrev S4x256x128x128 : Shape := ⟨4, ![4, 256, 128, 128]⟩
abbrev S256x256x1x1 : Shape := ⟨4, ![256, 256, 1, 1]⟩
abbrev S256 : Shape := ⟨1, ![256]⟩
abbrev S4x64x64x256 : Shape := ⟨4, ![4, 64, 64, 256]⟩
abbrev S4x64x64x2x256 : Shape := ⟨5, ![4, 64, 64, 2, 256]⟩
abbrev S4x64x128x256 : Shape := ⟨4, ![4, 64, 128, 256]⟩
abbrev S256x128x256 : Shape := ⟨3, ![256, 128, 256]⟩
abbrev S4x128x128x256 : Shape := ⟨4, ![4, 128, 128, 256]⟩
abbrev S256x2x128x256 : Shape := ⟨4, ![256, 2, 128, 256]⟩
abbrev S256x256 : Shape := ⟨2, ![256, 256]⟩
abbrev S1x256 : Shape := ⟨2, ![1, 256]⟩
abbrev S16x128x256 : Shape := ⟨3, ![16, 128, 256]⟩
abbrev S16x1x128x256 : Shape := ⟨4, ![16, 1, 128, 256]⟩
abbrev S2048x256 : Shape := ⟨2, ![2048, 256]⟩

abbrev nBuf : Space → Nat
  | .hbm => 16
  | .vmem => 8
  | .smem => 0
  | _ => 0

abbrev bufTy : (tb : Table) → Fin (tcTables nBuf tb) → BufTy
  | .hbm, ⟨0, _⟩ => ⟨S4x256x64x64, .f32⟩
  | .hbm, ⟨1, _⟩ => ⟨S4x256x128x128, .f32⟩
  | .hbm, ⟨2, _⟩ => ⟨S256x256x1x1, .f32⟩
  | .hbm, ⟨3, _⟩ => ⟨S256, .f32⟩
  | .hbm, ⟨4, _⟩ => ⟨S4x64x64x256, .f32⟩
  | .hbm, ⟨5, _⟩ => ⟨S4x64x64x2x256, .f32⟩
  | .hbm, ⟨6, _⟩ => ⟨S4x64x128x256, .f32⟩
  | .hbm, ⟨7, _⟩ => ⟨S256x128x256, .f32⟩
  | .hbm, ⟨8, _⟩ => ⟨S4x128x128x256, .f32⟩
  | .hbm, ⟨9, _⟩ => ⟨S256x2x128x256, .f32⟩
  | .hbm, ⟨10, _⟩ => ⟨S256x256, .f32⟩
  | .hbm, ⟨11, _⟩ => ⟨S256x256, .f32⟩
  | .hbm, ⟨12, _⟩ => ⟨S1x256, .f32⟩
  | .hbm, ⟨13, _⟩ => ⟨S256x2x128x256, .f32⟩
  | .hbm, ⟨14, _⟩ => ⟨S4x128x128x256, .f32⟩
  | .hbm, ⟨15, _⟩ => ⟨S4x256x128x128, .f32⟩
  | .local _ .vmem, ⟨0, _⟩ => ⟨S16x128x256, .f32⟩
  | .local _ .vmem, ⟨1, _⟩ => ⟨S16x128x256, .f32⟩
  | .local _ .vmem, ⟨2, _⟩ => ⟨S16x1x128x256, .f32⟩
  | .local _ .vmem, ⟨3, _⟩ => ⟨S16x1x128x256, .f32⟩
  | .local _ .vmem, ⟨4, _⟩ => ⟨S256x256, .f32⟩
  | .local _ .vmem, ⟨5, _⟩ => ⟨S1x256, .f32⟩
  | .local _ .vmem, ⟨6, _⟩ => ⟨S16x1x128x256, .f32⟩
  | .local _ .vmem, ⟨7, _⟩ => ⟨S16x1x128x256, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S4x256x64x64_S4x64x64x256_0_2_3_1 : S4x256x64x64.Transposes [0, 2, 3, 1] S4x64x64x256
  bcast_S4x64x64x256_S4x64x64x2x256_0_1_2_4 : S4x64x64x256.BroadcastsInDim S4x64x64x2x256 (![0, 1, 2, 4] : Fin 4 → Fin S4x64x64x2x256.rank)
  shapeCasts_S4x64x64x2x256_S4x64x128x256 : S4x64x64x2x256.ShapeCasts S4x64x128x256
  shapeCasts_S4x64x128x256_S256x128x256 : S4x64x128x256.ShapeCasts S256x128x256
  transposes_S4x256x128x128_S4x128x128x256_0_2_3_1 : S4x256x128x128.Transposes [0, 2, 3, 1] S4x128x128x256
  shapeCasts_S4x128x128x256_S256x2x128x256 : S4x128x128x256.ShapeCasts S256x2x128x256
  shapeCasts_S256x256x1x1_S256x256 : S256x256x1x1.ShapeCasts S256x256
  transposes_S256x256_S256x256_1_0 : S256x256.Transposes [1, 0] S256x256
  shapeCasts_S256_S1x256 : S256.ShapeCasts S1x256
  inb_S16x1x128x256_S16x1x128x256_0_0_0_0 : ∀ a, (![0, 0, 0, 0] : Fin 4 → Nat) a + S16x1x128x256.size a ≤ S16x1x128x256.size a
  h_S16x1x128x256 : 0 < S16x1x128x256.numel
  shapeCasts_S16x1x128x256_S16x1x128x256 : S16x1x128x256.ShapeCasts S16x1x128x256
  shapeCasts_S16x1x128x256_S2048x256 : S16x1x128x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S16x128x256_S16x128x256_0_0_0 : ∀ a, (![0, 0, 0] : Fin 3 → Nat) a + S16x128x256.size a ≤ S16x128x256.size a
  h_S16x128x256 : 0 < S16x128x256.numel
  shapeCasts_S16x128x256_S16x128x256 : S16x128x256.ShapeCasts S16x128x256
  shapeCasts_S16x128x256_S2048x256 : S16x128x256.ShapeCasts S2048x256
  shapeCasts_S2048x256_S16x1x128x256 : S2048x256.ShapeCasts S16x1x128x256
  shapeCasts_S256x2x128x256_S4x128x128x256 : S256x2x128x256.ShapeCasts S4x128x128x256
  transposes_S4x128x128x256_S4x256x128x128_0_3_1_2 : S4x128x128x256.Transposes [0, 3, 1, 2] S4x256x128x128
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x256.size a ≤ S256x128x256.size a
  hwx0_0 : ∀ i : grid0.Coords, EltTy.bits .f32 = 32 ∨ (Rect.block (s := S256x128x256) S16x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x128x256.size a ≤ S256x2x128x256.size a
  hwx0_1 : ∀ i : grid0.Coords, EltTy.bits .f32 = 32 ∨ (Rect.block (s := S256x2x128x256) S16x1x128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1x128x256.size a ≤ S256x2x128x256.size a
  hwx0_4 : ∀ i : grid0.Coords, EltTy.bits .f32 = 32 ∨ (Rect.block (s := S256x2x128x256) S16x1x128x256.size (cc0_transform_4 i) (hinb0_4 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v3) S16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S16x1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S16x1x128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Spec.lean ====
/-
  The feature-pyramid block as ONE function of its four argument arrays, index by index, on the extended reals:

      out[n, c, h, v] = Σ_k weight[c, k, 0, 0] · skip[n, k, h, v] + (x[n, c, h / 2, v / 2] + bias[c])

  — the 1×1 convolution of the skip array over its 256 channels, plus the low-resolution array repeated
  twice along both spatial axes (nearest-neighbour upsampling: output row `h` and column `v` read row `h / 2`
  and column `v / 2`), plus the per-channel bias. Both programs compute this; they differ in the layout they
  work in, in the order of the three summands, in the order of each product's factors, and in how the
  upsampling is spelt (one program multiplies each low-resolution row by a 0/1 matrix with a single one per
  column; the other repeats the array on the host). The two small laws that absorb those differences are here.
-/
import Idealize.ShloMosaic.PureOps.Ideal
import Idealize.ShloMosaic.Lib.ValueIdx

noncomputable section

namespace Cert.Fpn

open Idealize.ShloMosaic Idealize.ShloMosaic.ValueIdx
open scoped BigOperators

/-- The low-resolution array x : [4, 256, 64, 64]. -/
abbrev SX : Shape := ⟨4, ![4, 256, 64, 64]⟩
/-- The skip array and the result : [4, 256, 128, 128]. -/
abbrev SK : Shape := ⟨4, ![4, 256, 128, 128]⟩
/-- The 1×1 convolution's weight : [256, 256, 1, 1]. -/
abbrev SW : Shape := ⟨4, ![256, 256, 1, 1]⟩
/-- The bias : [256]. -/
abbrev SB : Shape := ⟨1, ![256]⟩

/-- The low-resolution coordinate an output coordinate reads: its half, rounded down. -/
abbrev half (a : Fin 128) : Fin 64 := ⟨a.val / 2, by have := a.isLt; omega⟩

/-- The result at batch `n`, channel `c`, row `h`, column `v`. -/
def fpnAt (x : SX.Idx → EReal) (s : SK.Idx → EReal) (w : SW.Idx → EReal) (b : SB.Idx → EReal)
    (n : Fin 4) (c : Fin 256) (h v : Fin 128) : EReal :=
  (∑ k : Fin 256, w (ix4 c k (0 : Fin 1) (0 : Fin 1)) * s (ix4 n k h v)) + (x (ix4 n c (half h) (half v)) + b (ix1 c))

/-- The result array. -/
def fpn (x : SX.Idx → EReal) (s : SK.Idx → EReal) (w : SW.Idx → EReal) (b : SB.Idx → EReal) : SK.Idx → EReal :=
  fun j => fpnAt x s w b (j 0) (j 1) (j 2) (j 3)

theorem fpn_apply (x : SX.Idx → EReal) (s : SK.Idx → EReal) (w : SW.Idx → EReal) (b : SB.Idx → EReal)
    (n : Fin 4) (c : Fin 256) (h v : Fin 128) : fpn x s w b (ix4 n c h v) = fpnAt x s w b n c h v := rfl

/-- A row times a 0/1 column with its single one at `a` is the row's entry at `a`: every other product is
    `_ · 0 = 0`, which holds on the extended reals whatever the other factor. -/
theorem sum_mul_onehot (X : Fin 64 → EReal) (a : Fin 64) :
    (∑ w : Fin 64, X w * (if w = a then (1 : EReal) else 0)) = X a := by
  rw [Finset.sum_eq_single a]
  · rw [if_pos rfl, mul_one]
  · intro b _ hb; rw [if_neg hb, mul_zero]
  · intro h; exact absurd (Finset.mem_univ a) h

/-- The other program's arrangement of one entry — each product's factors swapped, the bias added to the
    convolution first and the upsampled entry last — is the same extended real: addition and multiplication
    there are commutative and associative (no cancellation is used, so no finiteness). -/
theorem conv_bias_up (W S : Fin 256 → EReal) (b u : EReal) :
    ((∑ k : Fin 256, S k * W k) + b) + u = (∑ k : Fin 256, W k * S k) + (u + b) := by
  rw [add_assoc, add_comm b u]
  exact congrArg (· + (u + b)) (Finset.sum_congr rfl fun k _ => mul_comm _ _)

/-! ## The layout the second program works in

It flattens batch and low-resolution row into one axis of 256 rows `R = 64 n + h'`, keeps the two output rows
`2 h' + e` of a low-resolution row as a slot axis `e`, and puts the channels last. -/

/-- Row `R` of the 256 flattened rows is batch `R / 64`, -/
abbrev rowN (R : Fin 256) : Fin 4 := ⟨R.val / 64, by have := R.isLt; omega⟩
/-- low-resolution row `R % 64`, -/
abbrev rowH (R : Fin 256) : Fin 64 := ⟨R.val % 64, by have := R.isLt; omega⟩
/-- and its slot `e` is output row `2 (R % 64) + e`. -/
abbrev rowS (R : Fin 256) (e : Fin 2) : Fin 128 := ⟨2 * (R.val % 64) + e.val, by have := R.isLt; have := e.isLt; omega⟩
/-- Output row `h` of batch `n` lives in flattened row `64 n + h / 2`, -/
abbrev outR (n : Fin 4) (h : Fin 128) : Fin 256 := ⟨n.val * 64 + h.val / 2, by have := n.isLt; have := h.isLt; omega⟩
/-- in slot `h % 2`. -/
abbrev outE (h : Fin 128) : Fin 2 := ⟨h.val % 2, by omega⟩

/-- What the second program's region leaves in its result array [256, 2, 128, 256], as one function of its four
    operand arrays — the width-doubled rows `xw` [256, 128, 256], the skip rows `sk` [256, 2, 128, 256], the
    transposed weight `wt` [256, 256] and the bias row `br` [1, 256]: at row `R`, slot `e`, column `v`, channel `a`,
    `(Σ_k sk[R, e, v, k] · wt[k, a] + br[0, a]) + xw[R, v, a]`. -/
def regionFn (xw : (⟨3, ![256, 128, 256]⟩ : Shape).Idx → EReal) (sk : (⟨4, ![256, 2, 128, 256]⟩ : Shape).Idx → EReal)
    (wt : (⟨2, ![256, 256]⟩ : Shape).Idx → EReal) (br : (⟨2, ![1, 256]⟩ : Shape).Idx → EReal) :
    (⟨4, ![256, 2, 128, 256]⟩ : Shape).Idx → EReal :=
  fun j => ((∑ k : Fin 256, sk (ix4 (j 0) (j 1) (j 2) k) * wt (ix2 k (j 3))) + br (ix2 (0 : Fin 1) (j 3))) + xw (ix3 (j 0) (j 2) (j 3))

theorem regionFn_apply (xw : (⟨3, ![256, 128, 256]⟩ : Shape).Idx → EReal) (sk : (⟨4, ![256, 2, 128, 256]⟩ : Shape).Idx → EReal)
    (wt : (⟨2, ![256, 256]⟩ : Shape).Idx → EReal) (br : (⟨2, ![1, 256]⟩ : Shape).Idx → EReal)
    (R : Fin 256) (e : Fin 2) (v : Fin 128) (a : Fin 256) :
    regionFn xw sk wt br (ix4 R e v a)
      = ((∑ k : Fin 256, sk (ix4 R e v k) * wt (ix2 k a)) + br (ix2 (0 : Fin 1) a)) + xw (ix3 R v a) := rfl

end Cert.Fpn

end
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.KernelBody.lean ====
/-
  What the first program's kernel body leaves in its output block, as one function of its five input blocks.

  At a grid point the body holds a block `X` [1, 256, 8, 64] of the low-resolution array, a block `S` [1, 256, 16, 128] of
  the skip array, the whole weight matrix `W` [256, 256], the 0/1 matrix `U` [64, 128] and the bias spread along the
  columns `B` [256, 128]. For each of the 8 low-resolution rows `h` it forms `X[·, h, ·] · U + B` once (a [256, 64] by
  [64, 128] product plus the bias), and for each of the two output rows `r = 2 h + e` it stores
  `W · S[·, r, ·] + (X[·, h, ·] · U + B)` (a [256, 256] by [256, 128] product plus that term) into row `r` of the
  output block. So the output block at `(0, c, r, v)` is

      Σ_k W[c, k] · S[0, k, r, v] + (Σ_w X[0, c, r / 2, w] · U[w, v] + B[c, v]).

  The sixteen stores are sixteen spellings of one row function of the weight, the shared term and the skip row.
-/
import proofs.«130636_g2000605795771744_pallasbulk_1000_2_alg».proof.Proof.Spec
import proofs.«130636_g2000605795771744_pallasbulk_1000_2_alg».proof.Proof.LibPlainMatmul
import proofs.«130636_g2000605795771744_pallasbulk_1000_2_alg».proof.Proof.Gen.KernelIdeal.Frame
import Idealize.ShloMosaic.Lib.ValueIdx
import Idealize.ShloMosaic.Lib.Pipeline.Value

set_option maxRecDepth 16384

noncomputable section

namespace Cert.KernelIdeal.FpnBody

open Cert.KernelIdeal Cert.KernelIdeal.Gen Idealize.ShloMosaic Idealize.ShloMosaic.TcCoe Idealize.SL.Sem Idealize.ShloMosaic.ValueIdx
open scoped BigOperators

section Rows

variable {F : FTy → Type} [FloatOps F]

/-- A low-resolution row of the block, as a [256, 64] matrix, times the 0/1 matrix, plus the spread bias. -/
def upRow (Um : FVec F S64x128 .f32) (B : FVec F S256x128 .f32) (xr : Vec F S1x256x1x64 .f32) : FVec F S256x128 .f32 :=
  addf (matmul dot_S256x64_S64x128_S256x128_1_0_0_1_n_n none (shapeCast S256x64 xr shapeCasts_S1x256x1x64_S256x64) Um
    (constant S256x128 .f32 0x00000000#32)) B

/-- An output row: the weight matrix times a skip row as a [256, 128] matrix, plus the shared term `u`, laid back as a
    [1, 256, 1, 128] row. -/
def outRow (W : FVec F S256x256 .f32) (u : FVec F S256x128 .f32) (sr : Vec F S1x256x1x128 .f32) : FVec F S1x256x1x128 .f32 :=
  shapeCast S1x256x1x128 (addf (matmul dot_S256x256_S256x128_S256x128_1_0_0_1_n_n none W
    (shapeCast S256x128 sr shapeCasts_S1x256x1x128_S256x128) (constant S256x128 .f32 0x00000000#32)) u) shapeCasts_S256x128_S1x256x1x128

end Rows

/-- The shared term at channel `a`, column `v`: the low-resolution row's 64 entries of channel `a` against column `v` of
    the 0/1 matrix, plus the bias entry. -/
theorem upRow_apply (Um : FVec Ideal S64x128 .f32) (B : FVec Ideal S256x128 .f32) (xr : Vec Ideal S1x256x1x64 .f32)
    (a : Fin 256) (v : Fin 128) :
    upRow Um B xr (ix2 a v) = (∑ w : Fin 64, xr (ix4 (0 : Fin 1) a (0 : Fin 1) w) * Um (ix2 w v)) + B (ix2 a v) := by
  unfold upRow
  rw [addf_apply, Cert.PlainMatmul.matmul_zero_apply dot_S256x64_S64x128_S256x128_1_0_0_1_n_n rfl rfl rfl rfl rfl rfl none _ _ a v]
  refine congrArg (· + B (ix2 a v)) (Finset.sum_congr rfl fun w _ => ?_)
  refine congrArg (· * Um (ix2 w v)) ?_
  exact shapeCast_apply xr shapeCasts_S1x256x1x64_S256x64 (ix2 a w) (ix4 (0 : Fin 1) a (0 : Fin 1) w) (by
    rw [Shape.rowMajor_val_four, Shape.rowMajor_val_two]
    show ((0 * 256 + a.val) * 1 + 0) * 64 + w.val = a.val * 64 + w.val
    omega)

/-- An output row at channel `a`, column `v` (its two unit coordinates whatever they are): row `a` of the weight against
    column `v` of the skip row over the 256 input channels, plus the shared term there. -/
theorem outRow_apply (W : FVec Ideal S256x256 .f32) (u : FVec Ideal S256x128 .f32) (sr : Vec Ideal S1x256x1x128 .f32)
    (z0 : Fin 1) (a : Fin 256) (z2 : Fin 1) (v : Fin 128) :
    outRow W u sr (ix4 z0 a z2 v) = (∑ k : Fin 256, W (ix2 a k) * sr (ix4 (0 : Fin 1) k (0 : Fin 1) v)) + u (ix2 a v) := by
  unfold outRow
  refine (shapeCast_apply _ shapeCasts_S256x128_S1x256x1x128 (ix4 z0 a z2 v) (ix2 a v) (by
    rw [Shape.rowMajor_val_four, Shape.rowMajor_val_two]
    show a.val * 128 + v.val = ((z0.val * 256 + a.val) * 1 + z2.val) * 128 + v.val
    have := z0.isLt; have := z2.isLt; omega)).trans ?_
  rw [addf_apply, Cert.PlainMatmul.matmul_zero_apply dot_S256x256_S256x128_S256x128_1_0_0_1_n_n rfl rfl rfl rfl rfl rfl none _ _ a v]
  refine congrArg (· + u (ix2 a v)) (Finset.sum_congr rfl fun k _ => ?_)
  refine congrArg (W (ix2 a k) * ·) ?_
  exact shapeCast_apply sr shapeCasts_S1x256x1x128_S256x128 (ix2 k v) (ix4 (0 : Fin 1) k (0 : Fin 1) v) (by
    rw [Shape.rowMajor_val_four, Shape.rowMajor_val_two]
    show ((0 * 256 + k.val) * 1 + 0) * 128 + v.val = k.val * 128 + v.val
    omega)

/-! ## The block -/

/-- The output block at channel `c`, row `r`, column `v`, as a function of the two staged blocks `x0` (low-resolution rows)
    and `x1` (skip rows) and of the three matrices the body holds: the weight `W`, the 0/1 matrix `Um`, the spread bias `B`. -/
def blockFn (x0 : Vec Ideal S1x256x8x64 .f32) (x1 : Vec Ideal S1x256x16x128 .f32) (W : FVec Ideal S256x256 .f32)
    (Um : FVec Ideal S64x128 .f32) (B : FVec Ideal S256x128 .f32) (c : Fin 256) (r : Fin 16) (v : Fin 128) : EReal :=
  (∑ k : Fin 256, W (ix2 c k) * x1 (ix4 (0 : Fin 1) k r v))
    + ((∑ w : Fin 64, x0 (ix4 (0 : Fin 1) c (⟨r.val / 2, by have := r.isLt; omega⟩ : Fin 8) w) * Um (ix2 w v)) + B (ix2 c v))

/-- The same as a function of the block's index. -/
def blockAt (x0 : Vec Ideal S1x256x8x64 .f32) (x1 : Vec Ideal S1x256x16x128 .f32) (W : FVec Ideal S256x256 .f32)
    (Um : FVec Ideal S64x128 .f32) (B : FVec Ideal S256x128 .f32) : Vec Ideal S1x256x16x128 .f32 :=
  fun y => blockFn x0 x1 W Um B (y 1) (y 2) (y 3)

/-- The store into row `r` of the block — the row function of the weight, of the shared term of low-resolution row
    `h = r / 2`, and of skip row `r`, each row loaded through its one-row rectangle — read at a local index, is the
    block function at that index placed in row `r` of the block. -/
theorem piece_at (x0 : Vec Ideal S1x256x8x64 .f32) (x1 : Vec Ideal S1x256x16x128 .f32) (W : FVec Ideal S256x256 .f32)
    (Um : FVec Ideal S64x128 .f32) (B : FVec Ideal S256x128 .f32) (r h : Nat) (hr : r < 16) (hh : h = r / 2)
    (inbS : ∀ a, (![0, 0, r, 0] : Fin 4 → Nat) a + S1x256x1x128.size a ≤ S1x256x16x128.size a)
    (inbX : ∀ a, (![0, 0, h, 0] : Fin 4 → Nat) a + S1x256x1x64.size a ≤ S1x256x8x64.size a)
    (z0 : Fin 1) (a : Fin 256) (z2 : Fin 1) (v : Fin 128) :
    outRow W (upRow Um B (View.ld x0 (Rect.unit (s := S1x256x8x64) ![0, 0, h, 0] S1x256x1x64.size inbX)))
        (View.ld x1 (Rect.unit (s := S1x256x16x128) ![0, 0, r, 0] S1x256x1x128.size inbS)) (ix4 z0 a z2 v)
      = blockAt x0 x1 W Um B ((Rect.unit (s := S1x256x16x128) ![0, 0, r, 0] S1x256x1x128.size inbS).emb (ix4 z0 a z2 v)) := by
  subst hh
  have e1 : ((Rect.unit (s := S1x256x16x128) ![0, 0, r, 0] S1x256x1x128.size inbS).emb (ix4 z0 a z2 v)) 1 = a :=
    Fin.ext (by show 0 + 1 * a.val = a.val; omega)
  have e2 : ((Rect.unit (s := S1x256x16x128) ![0, 0, r, 0] S1x256x1x128.size inbS).emb (ix4 z0 a z2 v)) 2 = (⟨r, hr⟩ : Fin 16) :=
    Fin.ext (by show r + 1 * z2.val = r; have := z2.isLt; omega)
  have e3 : ((Rect.unit (s := S1x256x16x128) ![0, 0, r, 0] S1x256x1x128.size inbS).emb (ix4 z0 a z2 v)) 3 = v :=
    Fin.ext (by show 0 + 1 * v.val = v.val; omega)
  unfold blockAt
  rw [e1, e2, e3, outRow_apply, upRow_apply]
  unfold blockFn
  have eS : ∀ k : Fin 256, View.ld x1 (Rect.unit (s := S1x256x16x128) ![0, 0, r, 0] S1x256x1x128.size inbS) (ix4 (0 : Fin 1) k (0 : Fin 1) v)
      = x1 (ix4 (0 : Fin 1) k (⟨r, hr⟩ : Fin 16) v) := fun k => by
    show x1 _ = x1 _
    refine congrArg x1 (funext fun ax => Fin.ext ?_)
    match ax with
    | ⟨0, _⟩ => rfl
    | ⟨1, _⟩ => show 0 + 1 * k.val = k.val; omega
    | ⟨2, _⟩ => show r + 1 * 0 = r; omega
    | ⟨3, _⟩ => show 0 + 1 * v.val = v.val; omega
  have eX : ∀ w : Fin 64, View.ld x0 (Rect.unit (s := S1x256x8x64) ![0, 0, r / 2, 0] S1x256x1x64.size inbX) (ix4 (0 : Fin 1) a (0 : Fin 1) w)
      = x0 (ix4 (0 : Fin 1) a (⟨r / 2, by omega⟩ : Fin 8) w) := fun w => by
    show x0 _ = x0 _
    refine congrArg x0 (funext fun ax => Fin.ext ?_)
    match ax with
    | ⟨0, _⟩ => rfl
    | ⟨1, _⟩ => show 0 + 1 * a.val = a.val; omega
    | ⟨2, _⟩ => show r / 2 + 1 * 0 = r / 2; omega
    | ⟨3, _⟩ => show 0 + 1 * w.val = w.val; omega
  simp only [eS, eX]

theorem hz2 : (![0, 0] : Fin 2 → Nat) = fun _ => 0 := funext fun a => by fin_cases a <;> rfl

/-- The body's three whole-buffer loads, each under a shape cast to its own shape, read the buffers. -/
theorem weight_load (x2 : Vec Ideal S256x256 .f32) : k0_pay2 (View.ld x2 r0_0) = x2 :=
  (shapeCast_self (s := S256x256) _ shapeCasts_S256x256_S256x256).trans (View.ld_unit_zero hz2 _ x2)
theorem onehot_load (x3 : Vec Ideal S64x128 .f32) : k0_pay3 (View.ld x3 r0_1) = x3 :=
  (shapeCast_self (s := S64x128) _ shapeCasts_S64x128_S64x128).trans (View.ld_unit_zero hz2 _ x3)
theorem bias_load (x4 : Vec Ideal S256x128 .f32) : k0_pay4 (View.ld x4 r0_2) = x4 :=
  (shapeCast_self (s := S256x128) _ shapeCasts_S256x128_S256x128).trans (View.ld_unit_zero hz2 _ x4)

/-- THE BLOCK: the canon of the body's sixteen row stores is the block function of the five input blocks. Every store's
    payload is the row function at its own row (the sixteen spellings unfold to it), so each agrees with the block
    function where its rectangle sits, and the sixteen rectangles cover the block. -/
theorem out_eq (x0 : Vec Ideal S1x256x8x64 .f32) (x1 : Vec Ideal S1x256x16x128 .f32) (x2 : Vec Ideal S256x256 .f32)
    (x3 : Vec Ideal S64x128 .f32) (x4 : Vec Ideal S256x128 .f32) :
    out0_5 x0 x1 x2 x3 x4 = blockAt x0 x1 x2 x3 x4 := by
  have key : out0_5 x0 x1 x2 x3 x4
      = blockAt x0 x1 (k0_pay2 (View.ld x2 r0_0)) (k0_pay3 (View.ld x3 r0_1)) (k0_pay4 (View.ld x4 r0_2)) := by
    funext y
    unfold out0_5
    refine View.canon_apply_of_pieces _ _ ?_ y (cover0_5 _ _ _ _ _ _ _ _ _ _ _ _ _ _ _ _ y)
    intro p hp
    simp only [List.mem_cons, List.mem_nil_iff, or_false] at hp
    rcases hp with rfl | rfl | rfl | rfl | rfl | rfl | rfl | rfl | rfl | rfl | rfl | rfl | rfl | rfl | rfl | rfl
    all_goals intro x
    all_goals obtain ⟨z0, a, z2, v, rfl⟩ : ∃ (z0 : Fin 1) (a : Fin 256) (z2 : Fin 1) (v : Fin 128), x = ix4 z0 a z2 v :=
      ⟨x 0, x 1, x 2, x 3, eq_ix4 x⟩
    · exact piece_at x0 x1 _ _ _ 15 7 (by decide) rfl _ _ z0 a z2 v
    · exact piece_at x0 x1 _ _ _ 14 7 (by decide) rfl _ _ z0 a z2 v
    · exact piece_at x0 x1 _ _ _ 13 6 (by decide) rfl _ _ z0 a z2 v
    · exact piece_at x0 x1 _ _ _ 12 6 (by decide) rfl _ _ z0 a z2 v
    · exact piece_at x0 x1 _ _ _ 11 5 (by decide) rfl _ _ z0 a z2 v
    · exact piece_at x0 x1 _ _ _ 10 5 (by decide) rfl _ _ z0 a z2 v
    · exact piece_at x0 x1 _ _ _ 9 4 (by decide) rfl _ _ z0 a z2 v
    · exact piece_at x0 x1 _ _ _ 8 4 (by decide) rfl _ _ z0 a z2 v
    · exact piece_at x0 x1 _ _ _ 7 3 (by decide) rfl _ _ z0 a z2 v
    · exact piece_at x0 x1 _ _ _ 6 3 (by decide) rfl _ _ z0 a z2 v
    · exact piece_at x0 x1 _ _ _ 5 2 (by decide) rfl _ _ z0 a z2 v
    · exact piece_at x0 x1 _ _ _ 4 2 (by decide) rfl _ _ z0 a z2 v
    · exact piece_at x0 x1 _ _ _ 3 1 (by decide) rfl _ _ z0 a z2 v
    · exact piece_at x0 x1 _ _ _ 2 1 (by decide) rfl _ _ z0 a z2 v
    · exact piece_at x0 x1 _ _ _ 1 0 (by decide) rfl _ _ z0 a z2 v
    · exact piece_at x0 x1 _ _ _ 0 0 (by decide) rfl _ _ z0 a z2 v
  rw [key, weight_load, onehot_load, bias_load]

end Cert.KernelIdeal.FpnBody

end
-- ==== Proof.KernelHost.lean ====
/-
  The three operand arrays of the kernel's region that the host lines before it make, each read at an index given
  by coordinates:

    * the weight as a matrix: the reshape [256, 256, 1, 1] → [256, 256] keeps entry (a, k);
    * the 0/1 matrix [64, 128] whose entry (w, v) is 1 exactly when w = v / 2: a comparison of a row counter with a
      column counter on [64, 64], turned into a number, repeated along a new last axis of length 2, and flattened,
      so that column v of the result is column v / 2 of the comparison;
    * the bias repeated along the 128 columns: entry (a, v) is the bias of channel a.
-/
import proofs.«130636_g2000605795771744_pallasbulk_1000_2_alg».proof.Proof.Spec
import proofs.«130636_g2000605795771744_pallasbulk_1000_2_alg».proof.Proof.Gen.KernelIdeal.Value
import Idealize.ShloMosaic.Lib.ValueIdx
import Idealize.ShloMosaic.Lib.Pipeline.Value

noncomputable section

namespace Cert.KernelIdeal.FpnHost
open Cert.KernelIdeal Cert.KernelIdeal.Gen Idealize.ShloMosaic Idealize.ShloMosaic.TcCoe Idealize.SL.Sem Idealize.ShloMosaic.ValueIdx
variable (m : (ℓ : Loc nD τ sig) → Buf (Elt Ideal) ℓ)

/-- The weight matrix at (a, k) is the weight array at (a, k, 0, 0): a reshape keeps the row-major position, and
    (a · 256 + k) · 1 · 1 = a · 256 + k. -/
theorem weight_at (c : Dev nD) (a k : Fin 256) :
    (V m c main_v0 : S256x256.Idx → EReal) (ix2 a k)
      = (m ((c : Thread nD τ).loc main_arg2) : S256x256x1x1.Idx → EReal) (ix4 a k (0 : Fin 1) (0 : Fin 1)) := by
  have e : (V m c main_v0 : S256x256.Idx → EReal)
      = shapeCast S256x256 (m ((c : Thread nD τ).loc main_arg2) : S256x256x1x1.Idx → EReal)
          shapeCasts_S256x256x1x1_S256x256 := by
    dsimp only [Gen.V, Gen.hostOps0]; after_results; rfl
  refine (congrFun e (ix2 a k)).trans ?_
  refine shapeCast_apply _ _ (ix2 a k) (ix4 a k (0 : Fin 1) (0 : Fin 1)) ?_
  rw [Shape.rowMajor_val_two, Shape.rowMajor_val_four]
  show ((a.val * 256 + k.val) * 1 + 0) * 1 + 0 = a.val * 256 + k.val
  omega

/-- The repeated bias at (a, v) is the bias at a: the first broadcast puts channel a at (a, 0), the second reads
    column 0 of that unit axis at every column v. -/
theorem bias_at (c : Dev nD) (a : Fin 256) (v : Fin 128) :
    (V m c main_v10 : S256x128.Idx → EReal) (ix2 a v) = (m ((c : Thread nD τ).loc main_arg3) : S256.Idx → EReal) (ix1 a) := by
  have e : (V m c main_v10 : S256x128.Idx → EReal)
      = broadcastInDim S256x128 ![0, 1] bcast_S256x1_S256x128_0_1
          (broadcastInDim S256x1 ![0] bcast_S256_S256x1_0 (m ((c : Thread nD τ).loc main_arg3) : S256.Idx → EReal)) := by
    dsimp only [Gen.V, Gen.hostOps0]; after_results
  refine (congrFun e (ix2 a v)).trans ?_
  refine (broadcastInDim_apply _ _ _ (ix2 a v) (ix2 a (0 : Fin 1)) ?_).trans ?_
  · intro d
    match d with
    | ⟨0, _⟩ => rfl
    | ⟨1, _⟩ => rfl
  · refine broadcastInDim_apply _ _ _ (ix2 a (0 : Fin 1)) (ix1 a) ?_
    intro d
    match d with
    | ⟨0, _⟩ => rfl

/-- Two counters below 2³² are equal as 32-bit words only when they are equal. -/
private theorem word_inj {a b : Nat} (ha : a < 4294967296) (hb : b < 4294967296)
    (h : BitVec.ofNat 32 a = BitVec.ofNat 32 b) : a = b := by
  have h' := congrArg BitVec.toNat h
  rw [BitVec.toNat_ofNat, BitVec.toNat_ofNat, Nat.mod_eq_of_lt (by omega), Nat.mod_eq_of_lt (by omega)] at h'
  exact h'

/-- The comparison's number at a row counter a and a column counter b, both small: 1 when a = b, else 0. The zero
    added to the row counter changes nothing. -/
private theorem compare_at (a b : Nat) (ha : a < 64) (hb : b < 64) :
    (FloatOps.uitofp (F := Ideal) .f32 (IntOp.cmpi .eq (IntOp.addi (BitVec.ofNat 32 a) 0#32) (BitVec.ofNat 32 b)) : EReal)
      = if a = b then (1 : EReal) else 0 := by
  show (((IntOp.cmpi .eq (IntOp.addi (BitVec.ofNat 32 a) 0#32) (BitVec.ofNat 32 b)).toNat : ℝ) : EReal) = _
  unfold IntOp.cmpi IntOp.addi
  rw [BitVec.add_zero]
  by_cases h : a = b
  · subst h
    rw [if_pos rfl]
    simp
  · rw [if_neg h]
    have hne : BitVec.ofNat 32 a ≠ BitVec.ofNat 32 b := fun hw => h (word_inj (by omega) (by omega) hw)
    have hb' : (BitVec.ofNat 32 a == BitVec.ofNat 32 b) = false := by simpa using hne
    rw [hb']
    simp

/-- The 0/1 matrix at (w, v): flattening [64, 64, 2] → [64, 128] sends (w, v / 2, v % 2) to (w, v), since
    (w · 64 + v / 2) · 2 + v % 2 = w · 128 + v; the repeat along the last axis forgets v % 2; and the comparison at
    (w, v / 2) is 1 exactly when the row counter w equals the column counter v / 2. -/
theorem onehot_at (c : Dev nD) (w : Fin 64) (v : Fin 128) :
    (V m c main_v8 : S64x128.Idx → EReal) (ix2 w v) = if w = Cert.Fpn.half v then (1 : EReal) else 0 := by
  have e : (V m c main_v8 : S64x128.Idx → EReal)
      = shapeCast S64x128
          (broadcastInDim S64x64x2 ![0, 1] bcast_S64x64_S64x64x2_0_1
            (uitofp (F := Ideal) FTy.f32
              (cmpi CmpIPredicate.eq
                (addi (iotaInDim S64x64 32 0) (broadcastInDim S64x64 ![] bcast_S_S64x64 (constantI S_ 32 0#32)))
                (iotaInDim S64x64 32 1))))
          shapeCasts_S64x64x2_S64x128 := by
    dsimp only [Gen.V, Gen.hostOps0]; after_results; rfl
  have hv := v.isLt
  have hw := w.isLt
  refine (congrFun e (ix2 w v)).trans ?_
  refine (shapeCast_apply _ _ (ix2 w v) (ix3 w (Cert.Fpn.half v) (⟨v.val % 2, by omega⟩ : Fin 2)) ?_).trans ?_
  · rw [Shape.rowMajor_val_two, Shape.rowMajor_val_three]
    show (w.val * 64 + v.val / 2) * 2 + v.val % 2 = w.val * 128 + v.val
    omega
  refine (broadcastInDim_apply _ _ _ (ix3 w (Cert.Fpn.half v) (⟨v.val % 2, by omega⟩ : Fin 2)) (ix2 w (Cert.Fpn.half v)) ?_).trans ?_
  · intro d
    match d with
    | ⟨0, _⟩ => rfl
    | ⟨1, _⟩ => rfl
  refine (compare_at w.val (v.val / 2) hw (by omega)).trans ?_
  by_cases h : w = Cert.Fpn.half v
  · rw [if_pos h, if_pos (congrArg Fin.val h)]
  · rw [if_neg h, if_neg (fun hval => h (Fin.ext hval))]

end Cert.KernelIdeal.FpnHost
end
-- ==== Proof.KernelBlocks.lean ====
/-
  From the kernel's blocks to its result array, and the run.

  The grid has 4 × 8 points; at point (n, q) the output window's block is rows 16 q … 16 q + 15 of batch n of the result
  [4, 256, 128, 128], the skip window's block the same rows of the skip array, and the low-resolution window's block rows
  8 q … 8 q + 7 of batch n of x; the weight, the 0/1 matrix and the spread bias are staged whole. Block row r of the output
  reads block row r / 2 of x, and (16 q + r) / 2 = 8 q + r / 2, so every point writes back its block of ONE function of the
  arrays as the region finds them. The 32 blocks tile the result, so the result array ends holding that function; with the
  three host-made operands read back to the arguments, and the product with the 0/1 matrix collapsed to the single entry it
  selects, it is the feature-pyramid block of the four arguments.
-/
import proofs.«130636_g2000605795771744_pallasbulk_1000_2_alg».proof.Proof.Spec
import proofs.«130636_g2000605795771744_pallasbulk_1000_2_alg».proof.Proof.KernelBody
import proofs.«130636_g2000605795771744_pallasbulk_1000_2_alg».proof.Proof.KernelHost
import proofs.«130636_g2000605795771744_pallasbulk_1000_2_alg».proof.Proof.Gen.KernelIdeal.Value
import Idealize.ShloMosaic.Lib.ValueIdx
import Idealize.ShloMosaic.Lib.Pipeline.Value

set_option maxRecDepth 16384

noncomputable section

namespace Cert.KernelIdeal.FpnValue

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.FpnBody
open scoped BigOperators

variable (m : (ℓ : Loc nD τ sig) → Buf (Elt Ideal) ℓ) (ρ : Dev nD → PrngReg)

/-- The result array as one function of the five arrays the region stages, index by index. -/
def arrFn (A0 : S4x256x64x64.Idx → EReal) (A1 : S4x256x128x128.Idx → EReal) (W : S256x256.Idx → EReal)
    (Um : S64x128.Idx → EReal) (B : S256x128.Idx → EReal) : S4x256x128x128.Idx → EReal :=
  fun i => (∑ k : Fin 256, W (ix2 (i 1) k) * A1 (ix4 (i 0) k (i 2) (i 3)))
    + ((∑ w : Fin 64, A0 (ix4 (i 0) (i 1) (Cert.Fpn.half (i 2)) w) * Um (ix2 w (i 3))) + B (ix2 (i 1) (i 3)))

theorem arrFn_apply (A0 : S4x256x64x64.Idx → EReal) (A1 : S4x256x128x128.Idx → EReal) (W : S256x256.Idx → EReal)
    (Um : S64x128.Idx → EReal) (B : S256x128.Idx → EReal) (n : Fin 4) (a : Fin 256) (h v : Fin 128) :
    arrFn A0 A1 W Um B (ix4 n a h v) = (∑ k : Fin 256, W (ix2 a k) * A1 (ix4 n k h v))
      + ((∑ w : Fin 64, A0 (ix4 n a (Cert.Fpn.half h) w) * Um (ix2 w v)) + B (ix2 a v)) := rfl

/-- The printed index maps, decided over the 32 grid points: the two moving input windows have the output window's block
    index, the block index is (n, 0, q, 0) with n < 4 and q < 8, and the three whole-array windows sit at block (0, 0). -/
theorem idx_facts : ∀ t : Fin cfg0.N,
    win0_5.index t (0 : Fin 4) < 4 ∧ win0_5.index t (1 : Fin 4) = 0 ∧ win0_5.index t (2 : Fin 4) < 8 ∧ win0_5.index t (3 : Fin 4) = 0
    ∧ win0_0.index t (0 : Fin 4) = win0_5.index t (0 : Fin 4) ∧ win0_0.index t (1 : Fin 4) = 0
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = 0
    ∧ win0_1.index t (2 : Fin 4) = win0_5.index t (2 : Fin 4) ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every (batch, row-block) pair is some point's block index. -/
theorem idx_onto : ∀ (n : Fin 4) (q : Fin 8), ∃ t : Fin cfg0.N, win0_5.index t = ![n.val, 0, q.val, 0] :=
  (by decide +kernel : ∀ (n : Fin 4) (q : Fin 8), ∃ t : Fin grid0.N, win0_5.index t = ![n.val, 0, q.val, 0])

/-- WHAT POINT `t` WRITES BACK is its block of `arrFn` of the arrays as the region finds them. -/
theorem flushed_eq (c : Dev nD) (t : Fin cfg0.N) :
    (dats m 0 c).flushed 5 t = ((cfg0.win 5).blk t).view.read (Elt Ideal)
      (arrFn (V m c main_arg0) (V m c main_arg1) (V m c main_v0) (V m c main_v8) (V m c main_v10)) := by
  rw [Cert.KernelIdeal.Value.flushed5,
    out_eq (iblk m c 0 t) (iblk m c 1 t) (iblk m c 2 t) (iblk m c 3 t) (iblk m c 4 t)]
  obtain ⟨f0, f1, f2, f3, g0, g1, g2, g3, h0, h1, h2, h3, w0, w1, u0, u1, b0, b1⟩ := idx_facts t
  funext j
  have hj0 : (j 0).val < 1 := (j 0).isLt
  have hj1 : (j 1).val < 256 := (j 1).isLt
  have hj2 : (j 2).val < 16 := (j 2).isLt
  have hj3 : (j 3).val < 128 := (j 3).isLt
  show blockFn (iblk m c 0 t) (iblk m c 1 t) (iblk m c 2 t) (iblk m c 3 t) (iblk m c 4 t) (j 1) (j 2) (j 3)
    = arrFn (V m c main_arg0) (V m c main_arg1) (V m c main_v0) (V m c main_v8) (V m c main_v10) (((cfg0.win 5).blk t).view.emb j)
  unfold blockFn arrFn
  refine congrArg₂ (· + ·) (Finset.sum_congr rfl fun k _ => congrArg₂ (· * ·) ?_ ?_)
    (congrArg₂ (· + ·) (Finset.sum_congr rfl fun w _ => congrArg₂ (· * ·) ?_ ?_) ?_)
  · -- the weight, staged whole
    show V m c main_v0 (((cfg0.win 2).blk t).view.emb (ix2 (j 1) k)) = V m c main_v0 _
    refine congrArg (V m c main_v0) (funext fun ax => Fin.ext ?_)
    match ax with
    | ⟨0, _⟩ => show win0_2.index t (0 : Fin 2) * 256 + 1 * (j 1).val = win0_5.index t (1 : Fin 4) * 256 + 1 * (j 1).val; omega
    | ⟨1, _⟩ => show win0_2.index t (1 : Fin 2) * 256 + 1 * k.val = k.val; omega
  · -- the skip block
    show V m c main_arg1 (((cfg0.win 1).blk t).view.emb (ix4 (0 : Fin 1) k (j 2) (j 3))) = V m c main_arg1 _
    refine congrArg (V m c main_arg1) (funext fun ax => Fin.ext ?_)
    match ax with
    | ⟨0, _⟩ => show win0_1.index t (0 : Fin 4) * 1 + 1 * 0 = win0_5.index t (0 : Fin 4) * 1 + 1 * (j 0).val; omega
    | ⟨1, _⟩ => show win0_1.index t (1 : Fin 4) * 256 + 1 * k.val = k.val; omega
    | ⟨2, _⟩ => show win0_1.index t (2 : Fin 4) * 16 + 1 * (j 2).val = win0_5.index t (2 : Fin 4) * 16 + 1 * (j 2).val; omega
    | ⟨3, _⟩ => show win0_1.index t (3 : Fin 4) * 128 + 1 * (j 3).val = win0_5.index t (3 : Fin 4) * 128 + 1 * (j 3).val; omega
  · -- the low-resolution block: block row r / 2 is array row (16 q + r) / 2
    show V m c main_arg0 (((cfg0.win 0).blk t).view.emb (ix4 (0 : Fin 1) (j 1) (⟨(j 2).val / 2, by omega⟩ : Fin 8) w)) = V m c main_arg0 _
    refine congrArg (V m c main_arg0) (funext fun ax => Fin.ext ?_)
    match ax with
    | ⟨0, _⟩ => show win0_0.index t (0 : Fin 4) * 1 + 1 * 0 = win0_5.index t (0 : Fin 4) * 1 + 1 * (j 0).val; omega
    | ⟨1, _⟩ => show win0_0.index t (1 : Fin 4) * 256 + 1 * (j 1).val = win0_5.index t (1 : Fin 4) * 256 + 1 * (j 1).val; omega
    | ⟨2, _⟩ => show win0_0.index t (2 : Fin 4) * 8 + 1 * ((j 2).val / 2) = (win0_5.index t (2 : Fin 4) * 16 + 1 * (j 2).val) / 2; omega
    | ⟨3, _⟩ => show win0_0.index t (3 : Fin 4) * 64 + 1 * w.val = w.val; omega
  · -- the 0/1 matrix, staged whole
    show V m c main_v8 (((cfg0.win 3).blk t).view.emb (ix2 w (j 3))) = V m c main_v8 _
    refine congrArg (V m c main_v8) (funext fun ax => Fin.ext ?_)
    match ax with
    | ⟨0, _⟩ => show win0_3.index t (0 : Fin 2) * 64 + 1 * w.val = w.val; omega
    | ⟨1, _⟩ => show win0_3.index t (1 : Fin 2) * 128 + 1 * (j 3).val = win0_5.index t (3 : Fin 4) * 128 + 1 * (j 3).val; omega
  · -- the spread bias, staged whole
    show V m c main_v10 (((cfg0.win 4).blk t).view.emb (ix2 (j 1) (j 3))) = V m c main_v10 _
    refine congrArg (V m c main_v10) (funext fun ax => Fin.ext ?_)
    match ax with
    | ⟨0, _⟩ => show win0_4.index t (0 : Fin 2) * 256 + 1 * (j 1).val = win0_5.index t (1 : Fin 4) * 256 + 1 * (j 1).val; omega
    | ⟨1, _⟩ => show win0_4.index t (1 : Fin 2) * 128 + 1 * (j 3).val = win0_5.index t (3 : Fin 4) * 128 + 1 * (j 3).val; omega

/-- An index of the result is in point `t`'s block iff each coordinate is in the block's range on its axis. -/
theorem mem_blk (t : Fin cfg0.N) (i : S4x256x128x128.Idx) :
    i ∈ ((cfg0.win 5).blk t).view.set ↔ ∀ a : Fin 4, win0_5.index t a * S1x256x16x128.size a ≤ (i a).val
      ∧ (i a).val < win0_5.index t a * S1x256x16x128.size a + S1x256x16x128.size a := by
  show i ∈ ((View.whole main_v11).slice (win0_5.rect t)).set ↔ _
  rw [View.set_slice_whole, Rect.mem_set_unit]
  exact Iff.rfl

/-- The 32 blocks cover the result: index (n, a, h, v) is in the block of the point with block index (n, 0, h / 16, 0). -/
theorem cover (i : S4x256x128x128.Idx) :
    ∃ t : Fin cfg0.N, (cfg0.win 5).flush t = true ∧ i ∈ ((cfg0.win 5).blk t).view.set := by
  have hi0 : (i 0).val < 4 := (i 0).isLt
  have hi1 : (i 1).val < 256 := (i 1).isLt
  have hi2 : (i 2).val < 128 := (i 2).isLt
  have hi3 : (i 3).val < 128 := (i 3).isLt
  obtain ⟨t, ht⟩ := idx_onto ⟨(i 0).val, hi0⟩ ⟨(i 2).val / 16, by omega⟩
  have q0 : win0_5.index t (0 : Fin 4) = (i 0).val := congrFun ht 0
  have q1 : win0_5.index t (1 : Fin 4) = 0 := congrFun ht 1
  have q2 : win0_5.index t (2 : Fin 4) = (i 2).val / 16 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 256 ≤ (i 1).val ∧ (i 1).val < win0_5.index t (1 : Fin 4) * 256 + 256; omega
  | ⟨2, _⟩ => show win0_5.index t (2 : Fin 4) * 16 ≤ (i 2).val ∧ (i 2).val < win0_5.index t (2 : Fin 4) * 16 + 16; omega
  | ⟨3, _⟩ => show win0_5.index t (3 : Fin 4) * 128 ≤ (i 3).val ∧ (i 3).val < win0_5.index t (3 : Fin 4) * 128 + 128; omega

/-- THE RESULT ARRAY after the run: `arrFn` of the arrays as the region finds them. -/
theorem final (c : Dev nD) : (dats m 0 c).arrAt 5 cfg0.N
    = arrFn (V m c main_arg0) (V m c main_arg1) (V m c main_v0) (V m c main_v8) (V m c main_v10) :=
  (dats m 0 c).arrAt_eq_of_cover 5 _ (fun t _ => flushed_eq m c t) cover

/-- Read back to the four arguments: the two staged arguments are as launched, the weight is the argument reshaped, the
    bias the argument spread along the columns, and the product of a low-resolution row with the 0/1 matrix is the row's
    entry at half the column — so the result array is the feature-pyramid block of the arguments. -/
theorem arrFn_eq_fpn (c : Dev nD) :
    arrFn (V m c main_arg0) (V m c main_arg1) (V m c main_v0) (V m c main_v8) (V m c main_v10)
      = Cert.Fpn.fpn (m ((c : Thread nD τ).loc main_arg0)) (m ((c : Thread nD τ).loc main_arg1))
          (m ((c : Thread nD τ).loc main_arg2)) (m ((c : Thread nD τ).loc main_arg3)) := by
  funext i
  obtain ⟨n, a, h, v, rfl⟩ : ∃ (n : Fin 4) (a : Fin 256) (h v : Fin 128), i = ix4 n a h v := ⟨i 0, i 1, i 2, i 3, eq_ix4 i⟩
  rw [Cert.Fpn.fpn_apply, arrFn_apply, V_main_arg0, V_main_arg1]
  unfold Cert.Fpn.fpnAt
  refine congrArg₂ (· + ·)
    (Finset.sum_congr rfl fun k _ => congrArg₂ (· * ·) (Cert.KernelIdeal.FpnHost.weight_at m c a k) rfl)
    (congrArg₂ (· + ·) ?_ (Cert.KernelIdeal.FpnHost.bias_at m c a v))
  exact (Finset.sum_congr rfl fun w _ => congrArg₂ (fun x y : EReal => x * y) rfl (Cert.KernelIdeal.FpnHost.onehot_at m c w v)).trans
    (Cert.Fpn.sum_mul_onehot
      (fun w => (m ((c : Thread nD τ).loc main_arg0) : S4x256x64x64.Idx → EReal) (ix4 n a (Cert.Fpn.half h) w)) (Cert.Fpn.half v))

/-- THE RUN: every weakly fair execution ends with the result array at the feature-pyramid block of the four arguments,
    the arguments unchanged. -/
theorem run : θ_run (defs (F := Ideal)) (onTc (τ := τ) (main (F := Ideal))) ⟨m, fun _ => 0, ρ⟩ fun r => ∀ c : Dev nD,
      r.2.mem ((c : Thread nD τ).loc main_v11) = Cert.Fpn.fpn (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (arrFn_eq_fpn m c)), (h c).2⟩)
    (Cert.KernelIdeal.Value.run_blocks m ρ)

end Cert.KernelIdeal.FpnValue

end
-- ==== Proof.RefHost.lean ====
/-
  The second program's host lines, read index by index.

  Before its one region the program re-lays its four argument arrays: the low-resolution array [4, 256, 64, 64]
  is transposed to channels-last, each entry repeated twice along a new axis (the width doubling), and the axes
  merged to [256, 128, 256] (flattened row, output column, channel); the skip array [4, 256, 128, 128] is transposed
  to channels-last and its row axis split into (low-resolution row, slot); the weight [256, 256, 1, 1] loses its two
  unit axes and is transposed; the bias [256] gains a leading unit axis. After the region the result
  [256, 2, 128, 256] is merged back to [4, 128, 128, 256] and transposed to channels-second.

  Every one of these lines is a LAYOUT operation: the result at an index is the operand at one index. A transpose
  permutes the coordinates, a repeat drops the new axis' coordinate, and a reshape keeps the row-major position, so
  that merging or splitting an axis is division with remainder on one coordinate:
  `R = 64 (R / 64) + R % 64`, `v = 2 (v / 2) + v % 2`, `2 (64 n + h / 2) + h % 2 = 128 n + h`.
  Each lemma below composes these per-line readings, outermost line first.
-/
import proofs.«130636_g2000605795771744_pallasbulk_1000_2_alg».proof.Proof.Spec
import proofs.«130636_g2000605795771744_pallasbulk_1000_2_alg».proof.Proof.Gen.ReferenceIdeal.Frame
import Idealize.ShloMosaic.Lib.ValueIdx
import Idealize.ShloMosaic.Lib.Pipeline.Value

noncomputable section

namespace Cert.ReferenceIdeal.FpnHost
open Cert.ReferenceIdeal Cert.ReferenceIdeal.Gen Idealize.ShloMosaic Idealize.ShloMosaic.TcCoe Idealize.SL.Sem Idealize.ShloMosaic.ValueIdx
variable (m : (ℓ : Loc nD τ sig) → Buf (Elt Ideal) ℓ)

open Cert.Fpn (rowN rowH rowS outR outE half)

/-- The transposed weight at (input channel `k`, output channel `a`) is the weight at (`a`, `k`, 0, 0):
    the two unit axes carry no position, and the transpose swaps the two coordinates. -/
theorem weightT_at (c : Dev nD) (k a : Fin 256) :
    (V m c main_v7 : S256x256.Idx → EReal) (ix2 k a)
      = (m ((c : Thread nD τ).loc main_arg2) : S256x256x1x1.Idx → EReal) (ix4 a k (0 : Fin 1) (0 : Fin 1)) := by
  have e : (V m c main_v7 : S256x256.Idx → EReal)
      = transpose S256x256 [1, 0]
          (shapeCast S256x256 (m ((c : Thread nD τ).loc main_arg2) : S256x256x1x1.Idx → EReal) shapeCasts_S256x256x1x1_S256x256)
          transposes_S256x256_S256x256_1_0 := by
    show StableHlo.after hostOps0 (fun b => m (c, b)) (Proc.devRef .tc main_v7) = _
    after_results
    rfl
  refine (congrFun e (ix2 k a)).trans ?_
  -- the transpose: result (k, a) is operand (a, k)
  refine (transpose_apply [1, 0] _ transposes_S256x256_S256x256_1_0 (ix2 k a) (ix2 a k) ?_).trans ?_
  · intro b
    match b with
    | ⟨0, _⟩ => rfl
    | ⟨1, _⟩ => rfl
  -- the reshape: position 256 a + k on both sides
  refine shapeCast_apply _ shapeCasts_S256x256x1x1_S256x256 (ix2 a k) (ix4 a k (0 : Fin 1) (0 : Fin 1)) ?_
  rw [Shape.rowMajor_val_four, Shape.rowMajor_val_two]
  show ((a.val * 256 + k.val) * 1 + 0) * 1 + 0 = a.val * 256 + k.val
  omega

/-- The bias row at (0, `a`) is the bias at `a`: a leading unit axis carries no position. -/
theorem bias_at (c : Dev nD) (a : Fin 256) :
    (V m c main_v8 : S1x256.Idx → EReal) (ix2 (0 : Fin 1) a) = (m ((c : Thread nD τ).loc main_arg3) : S256.Idx → EReal) (ix1 a) := by
  have e : (V m c main_v8 : S1x256.Idx → EReal)
      = shapeCast S1x256 (m ((c : Thread nD τ).loc main_arg3) : S256.Idx → EReal) shapeCasts_S256_S1x256 := by
    show StableHlo.after hostOps0 (fun b => m (c, b)) (Proc.devRef .tc main_v8) = _
    after_results
    rfl
  refine (congrFun e (ix2 (0 : Fin 1) a)).trans ?_
  refine shapeCast_apply _ shapeCasts_S256_S1x256 (ix2 (0 : Fin 1) a) (ix1 a) ?_
  rw [Shape.rowMajor_val_one, Shape.rowMajor_val_two]
  show a.val = 0 * 256 + a.val
  omega

/-- The skip rows at (flattened row `R`, slot `e`, column `v`, channel `k`) are the skip array at batch `R / 64`,
    channel `k`, output row `2 (R % 64) + e`, column `v`: splitting the merged (batch, row) axis [4 · 128] into
    (flattened row, slot) [256, 2] keeps the position `128 (R / 64) + 2 (R % 64) + e = 2 R + e`, and the transpose had
    moved the channel from second to last. -/
theorem skip_at (c : Dev nD) (R : Fin 256) (e : Fin 2) (v : Fin 128) (k : Fin 256) :
    (V m c main_v5 : S256x2x128x256.Idx → EReal) (ix4 R e v k)
      = (m ((c : Thread nD τ).loc main_arg1) : S4x256x128x128.Idx → EReal) (ix4 (rowN R) k (rowS R e) v) := by
  have e' : (V m c main_v5 : S256x2x128x256.Idx → EReal)
      = shapeCast S256x2x128x256
          (transpose S4x128x128x256 [0, 2, 3, 1] (m ((c : Thread nD τ).loc main_arg1) : S4x256x128x128.Idx → EReal)
            transposes_S4x256x128x128_S4x128x128x256_0_2_3_1)
          shapeCasts_S4x128x128x256_S256x2x128x256 := by
    show StableHlo.after hostOps0 (fun b => m (c, b)) (Proc.devRef .tc main_v5) = _
    after_results
    rfl
  refine (congrFun e' (ix4 R e v k)).trans ?_
  -- the reshape [4, 128, 128, 256] → [256, 2, 128, 256]
  refine (shapeCast_apply _ shapeCasts_S4x128x128x256_S256x2x128x256 (ix4 R e v k) (ix4 (rowN R) (rowS R e) v k) ?_).trans ?_
  · rw [Shape.rowMajor_val_four, Shape.rowMajor_val_four]
    show (((R.val / 64) * 128 + (2 * (R.val % 64) + e.val)) * 128 + v.val) * 256 + k.val
        = ((R.val * 2 + e.val) * 128 + v.val) * 256 + k.val
    have := R.isLt; have := e.isLt
    omega
  -- the transpose [4, 256, 128, 128] → [4, 128, 128, 256]: result (n, s, v, k) is operand (n, k, s, v)
  refine transpose_apply [0, 2, 3, 1] _ transposes_S4x256x128x128_S4x128x128x256_0_2_3_1
    (ix4 (rowN R) (rowS R e) v k) (ix4 (rowN R) k (rowS R e) v) ?_
  intro b
  match b with
  | ⟨0, _⟩ => rfl
  | ⟨1, _⟩ => rfl
  | ⟨2, _⟩ => rfl
  | ⟨3, _⟩ => rfl

/-- The width-doubled rows at (flattened row `R`, output column `v`, channel `a`) are the low-resolution array at
    batch `R / 64`, channel `a`, row `R % 64`, column `v / 2`: the flattened row splits into (batch, row), the output
    column into (low-resolution column, copy) with `v = 2 (v / 2) + v % 2`, the repeat forgets which copy, and the
    transpose had moved the channel from second to last. -/
theorem up_at (c : Dev nD) (R : Fin 256) (v : Fin 128) (a : Fin 256) :
    (V m c main_v3 : S256x128x256.Idx → EReal) (ix3 R v a)
      = (m ((c : Thread nD τ).loc main_arg0) : S4x256x64x64.Idx → EReal) (ix4 (rowN R) a (rowH R) (half v)) := by
  have e : (V m c main_v3 : S256x128x256.Idx → EReal)
      = shapeCast S256x128x256
          (shapeCast S4x64x128x256
            (broadcastInDim S4x64x64x2x256 ![0, 1, 2, 4] bcast_S4x64x64x256_S4x64x64x2x256_0_1_2_4
              (transpose S4x64x64x256 [0, 2, 3, 1] (m ((c : Thread nD τ).loc main_arg0) : S4x256x64x64.Idx → EReal)
                transposes_S4x256x64x64_S4x64x64x256_0_2_3_1))
            shapeCasts_S4x64x64x2x256_S4x64x128x256)
          shapeCasts_S4x64x128x256_S256x128x256 := by
    show StableHlo.after hostOps0 (fun b => m (c, b)) (Proc.devRef .tc main_v3) = _
    after_results
    rfl
  refine (congrFun e (ix3 R v a)).trans ?_
  -- the reshape [4, 64, 128, 256] → [256, 128, 256]
  refine (shapeCast_apply _ shapeCasts_S4x64x128x256_S256x128x256 (ix3 R v a) (ix4 (rowN R) (rowH R) v a) ?_).trans ?_
  · rw [Shape.rowMajor_val_four, Shape.rowMajor_val_three]
    show (((R.val / 64) * 64 + R.val % 64) * 128 + v.val) * 256 + a.val = (R.val * 128 + v.val) * 256 + a.val
    omega
  -- the reshape [4, 64, 64, 2, 256] → [4, 64, 128, 256]
  refine (shapeCast_apply _ shapeCasts_S4x64x64x2x256_S4x64x128x256 (ix4 (rowN R) (rowH R) v a)
    (ix5 (rowN R) (rowH R) (half v) (outE v) a) ?_).trans ?_
  · rw [Shape.rowMajor_val_five, Shape.rowMajor_val_four]
    show ((((R.val / 64) * 64 + R.val % 64) * 64 + v.val / 2) * 2 + v.val % 2) * 256 + a.val
        = (((R.val / 64) * 64 + R.val % 64) * 128 + v.val) * 256 + a.val
    omega
  -- the repeat along the new fourth axis
  refine (broadcastInDim_apply ![0, 1, 2, 4] bcast_S4x64x64x256_S4x64x64x2x256_0_1_2_4 _
    (ix5 (rowN R) (rowH R) (half v) (outE v) a) (ix4 (rowN R) (rowH R) (half v) a) ?_).trans ?_
  · intro b
    match b with
    | ⟨0, _⟩ => rfl
    | ⟨1, _⟩ => rfl
    | ⟨2, _⟩ => rfl
    | ⟨3, _⟩ => rfl
  -- the transpose [4, 256, 64, 64] → [4, 64, 64, 256]: result (n, h, w, a) is operand (n, a, h, w)
  refine transpose_apply [0, 2, 3, 1] _ transposes_S4x256x64x64_S4x64x64x256_0_2_3_1
    (ix4 (rowN R) (rowH R) (half v) a) (ix4 (rowN R) a (rowH R) (half v)) ?_
  intro b
  match b with
  | ⟨0, _⟩ => rfl
  | ⟨1, _⟩ => rfl
  | ⟨2, _⟩ => rfl
  | ⟨3, _⟩ => rfl

/-- The program's result at (batch `n`, channel `a`, row `h`, column `v`) is the region's result array at flattened
    row `64 n + h / 2`, slot `h % 2`, column `v`, channel `a`: the final transpose moves the channel from last to
    second, and merging (flattened row, slot) [256, 2] into (batch, row) [4 · 128] keeps the position
    `2 (64 n + h / 2) + h % 2 = 128 n + h`. The two lines read the array the region left, untouched in between. -/
theorem tail_at (c : Dev nD) (n : Fin 4) (a : Fin 256) (h v : Fin 128) :
    (Pipeline.afterTail₀ cfgs (dats m) 0 (V0 m) [hostOps1] c main_v11 : S4x256x128x128.Idx → EReal) (ix4 n a h v)
      = ((dats m 0 c).arrAt 4 cfg0.N : S256x2x128x256.Idx → EReal) (ix4 (outR n h) (outE h) v a) := by
  have e : (Pipeline.afterTail₀ cfgs (dats m) 0 (V0 m) [hostOps1] c main_v11 : S4x256x128x128.Idx → EReal)
      = transpose S4x256x128x128 [0, 3, 1, 2]
          (shapeCast S4x128x128x256 ((dats m 0 c).arrAt 4 cfg0.N : S256x2x128x256.Idx → EReal)
            shapeCasts_S256x2x128x256_S4x128x128x256)
          transposes_S4x128x128x256_S4x256x128x128_0_3_1_2 := by
    unfold Pipeline.afterTail₀
    show StableHlo.after hostOps1 _ (Proc.devRef .tc main_v11) = _
    after_results
    rw [Pipeline.withArrays_arr spec0 launch0.win.arr_inj c _ _ 4]
    rfl
  refine (congrFun e (ix4 n a h v)).trans ?_
  -- the transpose [4, 128, 128, 256] → [4, 256, 128, 128]: result (n, a, h, v) is operand (n, h, v, a)
  refine (transpose_apply [0, 3, 1, 2] _ transposes_S4x128x128x256_S4x256x128x128_0_3_1_2
    (ix4 n a h v) (ix4 n h v a) ?_).trans ?_
  · intro b
    match b with
    | ⟨0, _⟩ => rfl
    | ⟨1, _⟩ => rfl
    | ⟨2, _⟩ => rfl
    | ⟨3, _⟩ => rfl
  -- the reshape [256, 2, 128, 256] → [4, 128, 128, 256]
  refine shapeCast_apply _ shapeCasts_S256x2x128x256_S4x128x128x256 (ix4 n h v a) (ix4 (outR n h) (outE h) v a) ?_
  rw [Shape.rowMajor_val_four, Shape.rowMajor_val_four]
  show (((n.val * 64 + h.val / 2) * 2 + h.val % 2) * 128 + v.val) * 256 + a.val
      = ((n.val * 128 + h.val) * 128 + v.val) * 256 + a.val
  omega

end Cert.ReferenceIdeal.FpnHost
end
-- ==== Proof.RefRegion.lean ====
/-
  The second program's region, read as one function of its four operand arrays.

  The region runs over a grid of 16 × 2 points. At point (p, e) it takes rows 16 p … 16 p + 15 of the
  width-doubled array xw [256, 128, 256], the same rows in slot e of the skip array sk [256, 2, 128, 256], the
  whole transposed weight wt [256, 256] and the whole bias row br [1, 256], and writes rows 16 p … 16 p + 15 of
  slot e of the result [256, 2, 128, 256]. Its body flattens a block's 16 rows × 128 columns into 2048 rows
  128 r + v, multiplies the flattened skip block [2048, 256] by the weight [256, 256], adds the bias row to every
  row and the flattened low-resolution block entry by entry, and unflattens. So the entry at row r, column v,
  channel a of the block is (Σ_k sk_blk[r, 0, v, k] · wt[k, a] + br[0, a]) + xw_blk[r, v, a]; a block's row r at
  point (p, e) is the array's row 16 p + r; and the 32 blocks tile the result array. Hence the array after the
  region is the specification's function of the four operand arrays.
-/
import proofs.«130636_g2000605795771744_pallasbulk_1000_2_alg».proof.Proof.Spec
import proofs.«130636_g2000605795771744_pallasbulk_1000_2_alg».proof.Proof.LibPlainMatmul
import proofs.«130636_g2000605795771744_pallasbulk_1000_2_alg».proof.Proof.Gen.ReferenceIdeal.Frame
import Idealize.ShloMosaic.Lib.ValueIdx
import Idealize.ShloMosaic.Lib.Pipeline.Value

noncomputable section

namespace Cert.ReferenceIdeal.FpnBlocks
open Cert.ReferenceIdeal Cert.ReferenceIdeal.Gen Idealize.ShloMosaic Idealize.ShloMosaic.TcCoe Idealize.SL.Sem Idealize.ShloMosaic.ValueIdx
open scoped BigOperators
variable (m : (ℓ : Loc nD τ sig) → Buf (Elt Ideal) ℓ)

/-! ## The body's loads and its one store go through the whole staging buffers -/

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The body's value at an index -/

/-- Row r, column v of a [16, 128, ·] block is row 128 r + v of its flattening to [2048, ·]. -/
abbrev flatRow (r : Fin 16) (v : Fin 128) : Fin 2048 := ⟨128 * r.val + v.val, by have := r.isLt; have := v.isLt; omega⟩

/-- The value the body stores, at row r, (unit) slot u, column v, channel a of the block: the skip block's
    row times the weight's column, plus the bias entry, plus the low-resolution block's entry. -/
theorem pay_at (x0 : Vec Ideal S16x128x256 .f32) (x1 : Vec Ideal S16x1x128x256 .f32) (x2 : Vec Ideal S256x256 .f32)
    (x3 : Vec Ideal S1x256 .f32) (r : Fin 16) (u : Fin 1) (v : Fin 128) (a : Fin 256) :
    k0_pay1 x1 x2 x3 x0 (ix4 r u v a)
      = ((∑ k : Fin 256, x1 (ix4 r u v k) * x2 (ix2 k a)) + x3 (ix2 (0 : Fin 1) a)) + x0 (ix3 r v a) := by
  have hu : u.val = 0 := by have := u.isLt; omega
  have hr := r.isLt
  have hv := v.isLt
  unfold k0_pay1
  refine (shapeCast_apply _ _ (ix4 r u v a) (ix2 (flatRow r v) a) ?_).trans ?_
  · rw [Shape.rowMajor_val_two, Shape.rowMajor_val_four]
    show (128 * r.val + v.val) * 256 + a.val = ((r.val * 1 + u.val) * 128 + v.val) * 256 + a.val
    omega
  refine (addf_apply _ _ _).trans (congrArg₂ (· + ·) ((addf_apply _ _ _).trans (congrArg₂ (· + ·) ?_ ?_)) ?_)
  · refine (Cert.PlainMatmul.matmul_zero_apply _ rfl rfl rfl rfl rfl rfl _ _ _ _ _).trans ?_
    refine Finset.sum_congr rfl fun k _ => congrArg₂ (· * ·) ?_ ?_
    · refine (shapeCast_apply _ _ (ix2 (flatRow r v) k) (ix4 r u v k) ?_).trans (congrFun (shapeCast_self x1 _) _)
      rw [Shape.rowMajor_val_two, Shape.rowMajor_val_four]
      show ((r.val * 1 + u.val) * 128 + v.val) * 256 + k.val = (128 * r.val + v.val) * 256 + k.val
      omega
    · exact congrFun (shapeCast_self x2 _) _
  · refine (broadcastTo_apply _ _ (ix2 (flatRow r v) a) (ix2 (0 : Fin 1) a) ?_).trans (congrFun (shapeCast_self x3 _) _)
    intro ax
    match ax with
    | ⟨0, _⟩ => rfl
    | ⟨1, _⟩ => rfl
  · refine (shapeCast_apply _ _ (ix2 (flatRow r v) a) (ix3 r v a) ?_).trans (congrFun (shapeCast_self x0 _) _)
    rw [Shape.rowMajor_val_two, Shape.rowMajor_val_three]
    show (r.val * 128 + v.val) * 256 + a.val = (128 * r.val + v.val) * 256 + a.val
    omega

/-! ## Which block of each array a point takes -/

/-- The five index maps, decided over the 32 grid points: the low-resolution window moves with the result's row
    block and stays at block 0 on its other axes; the skip window moves with the result's row block and slot; the
    weight and the bias windows stay at block 0; the result's window stays at block 0 on its last two axes, its row
    block is below 16 and its slot below 2. -/
theorem idx_facts : ∀ t : Fin cfg0.N,
    win0_0.index t (0 : Fin 3) = win0_4.index t (0 : Fin 4) ∧ win0_0.index t (1 : Fin 3) = 0 ∧ win0_0.index t (2 : Fin 3) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (2 : Fin 4) = 0 ∧ win0_4.index t (3 : Fin 4) = 0
    ∧ win0_4.index t (0 : Fin 4) ≤ 15 ∧ win0_4.index t (1 : Fin 4) ≤ 1 :=
  (by decide +kernel : ∀ t : Fin grid0.N, _)

/-- Every row block and slot of the result is some point's. -/
theorem idx_onto : ∀ (q0 : Fin 16) (q1 : Fin 2), ∃ t : Fin cfg0.N, win0_4.index t = ![q0.val, q1.val, 0, 0] :=
  (by decide +kernel : ∀ (q0 : Fin 16) (q1 : Fin 2), ∃ t : Fin grid0.N, win0_4.index t = ![q0.val, q1.val, 0, 0])

/-- The array row under row r of point t's blocks: 16 times the row block, plus r. -/
def arrRow (t : Fin cfg0.N) (r : Fin 16) : Fin 256 :=
  ⟨win0_4.index t (0 : Fin 4) * 16 + r.val, by have := (idx_facts t).2.2.2.2.2.2.2.2.2.2.2.2.2.1; have := r.isLt; omega⟩

/-- The array slot under the (unit) slot of point t's blocks: the point's slot. -/
def arrSlot (t : Fin cfg0.N) (u : Fin 1) : Fin 2 :=
  ⟨win0_4.index t (1 : Fin 4) + u.val, by have := (idx_facts t).2.2.2.2.2.2.2.2.2.2.2.2.2.2; have := u.isLt; omega⟩

/-- Where an entry of the result's block at point t sits in the result array. -/
theorem out_emb (t : Fin cfg0.N) (r : Fin 16) (u : Fin 1) (v : Fin 128) (a : Fin 256) :
    ((cfg0.win 4).blk t).view.emb (ix4 r u v a) = (ix4 (arrRow t r) (arrSlot t u) v a : S256x2x128x256.Idx) := by
  obtain ⟨-, -, -, -, -, -, -, -, -, -, -, e2, e3, -, -⟩ := idx_facts t
  funext ax; apply Fin.ext
  match ax with
  | ⟨0, _⟩ => show win0_4.index t (0 : Fin 4) * 16 + 1 * r.val = win0_4.index t (0 : Fin 4) * 16 + r.val; omega
  | ⟨1, _⟩ => show win0_4.index t (1 : Fin 4) * 1 + 1 * u.val = win0_4.index t (1 : Fin 4) + u.val; omega
  | ⟨2, _⟩ => show win0_4.index t (2 : Fin 4) * 128 + 1 * v.val = v.val; omega
  | ⟨3, _⟩ => show win0_4.index t (3 : Fin 4) * 256 + 1 * a.val = a.val; omega

/-! ## Each input block's entries are the operand array's -/

/-- The low-resolution block's entry is the array's, in the block's rows. -/
theorem xw_blk_at (c : Dev nD) (t : Fin cfg0.N) (r : Fin 16) (v : Fin 128) (a : Fin 256) :
    (iblk m c 0 t : Vec Ideal S16x128x256 .f32) (ix3 r v a) = (V m c main_v3 : S256x128x256.Idx → EReal) (ix3 (arrRow t r) v a) := by
  obtain ⟨e0, e1, e2, -⟩ := idx_facts t
  unfold iblk
  rw [View.read_apply]
  show V m c main_v3 _ = V m c main_v3 _
  congr 1
  funext ax; apply Fin.ext
  match ax with
  | ⟨0, _⟩ => show win0_0.index t (0 : Fin 3) * 16 + 1 * r.val = win0_4.index t (0 : Fin 4) * 16 + r.val; omega
  | ⟨1, _⟩ => show win0_0.index t (1 : Fin 3) * 128 + 1 * v.val = v.val; omega
  | ⟨2, _⟩ => show win0_0.index t (2 : Fin 3) * 256 + 1 * a.val = a.val; omega

/-- The skip block's entry is the array's, in the block's rows and the point's slot. -/
theorem sk_blk_at (c : Dev nD) (t : Fin cfg0.N) (r : Fin 16) (u : Fin 1) (v : Fin 128) (k : Fin 256) :
    (iblk m c 1 t : Vec Ideal S16x1x128x256 .f32) (ix4 r u v k)
      = (V m c main_v5 : S256x2x128x256.Idx → EReal) (ix4 (arrRow t r) (arrSlot t u) v k) := by
  obtain ⟨-, -, -, e0, e1, e2, e3, -⟩ := idx_facts t
  unfold iblk
  rw [View.read_apply]
  show V m c main_v5 _ = V m c main_v5 _
  congr 1
  funext ax; apply Fin.ext
  match ax with
  | ⟨0, _⟩ => show win0_1.index t (0 : Fin 4) * 16 + 1 * r.val = win0_4.index t (0 : Fin 4) * 16 + r.val; omega
  | ⟨1, _⟩ => show win0_1.index t (1 : Fin 4) * 1 + 1 * u.val = win0_4.index t (1 : Fin 4) + u.val; omega
  | ⟨2, _⟩ => show win0_1.index t (2 : Fin 4) * 128 + 1 * v.val = v.val; omega
  | ⟨3, _⟩ => show win0_1.index t (3 : Fin 4) * 256 + 1 * k.val = k.val; omega

/-- The weight's one block is the whole weight. -/
theorem wt_blk_at (c : Dev nD) (t : Fin cfg0.N) (k a : Fin 256) :
    (iblk m c 2 t : Vec Ideal S256x256 .f32) (ix2 k a) = (V m c main_v7 : S256x256.Idx → EReal) (ix2 k a) := by
  obtain ⟨-, -, -, -, -, -, -, e0, e1, -⟩ := idx_facts t
  unfold iblk
  rw [View.read_apply]
  show V m c main_v7 _ = V m c main_v7 _
  congr 1
  funext ax; apply Fin.ext
  match ax with
  | ⟨0, _⟩ => show win0_2.index t (0 : Fin 2) * 256 + 1 * k.val = k.val; omega
  | ⟨1, _⟩ => show win0_2.index t (1 : Fin 2) * 256 + 1 * a.val = a.val; omega

/-- The bias row's one block is the whole bias row. -/
theorem br_blk_at (c : Dev nD) (t : Fin cfg0.N) (z : Fin 1) (a : Fin 256) :
    (iblk m c 3 t : Vec Ideal S1x256 .f32) (ix2 z a) = (V m c main_v8 : S1x256.Idx → EReal) (ix2 z a) := by
  obtain ⟨-, -, -, -, -, -, -, -, -, e0, e1, -⟩ := idx_facts t
  unfold iblk
  rw [View.read_apply]
  show V m c main_v8 _ = V m c main_v8 _
  congr 1
  funext ax; apply Fin.ext
  match ax with
  | ⟨0, _⟩ => show win0_3.index t (0 : Fin 2) * 1 + 1 * z.val = z.val; omega
  | ⟨1, _⟩ => show win0_3.index t (1 : Fin 2) * 256 + 1 * a.val = a.val; omega

/-! ## What a point writes back, and the array after the 32 points -/

/-- What point t writes back is its block of the specification's function of the four operand arrays: the body's
    stored value at an index, each block entry read in its array, the index placed in the result array. -/
theorem flushed_eq (c : Dev nD) (t : Fin cfg0.N) :
    (dats m 0 c).flushed 4 t = ((cfg0.win 4).blk t).view.read (Elt Ideal)
      (Cert.Fpn.regionFn (V m c main_v3) (V m c main_v5) (V m c main_v7) (V m c main_v8)) := by
  show (cfg0.win 4).cut (grid0.coords t) ((dats m 0 c).after 4 t) = _
  rw [after0_4]
  unfold out0_4
  rw [View.canon_unit_zero zeros4]
  simp only [View.ld_unit_zero (S := S16x1x128x256) zeros4, View.ld_unit_zero (S := S256x256) zeros2,
    View.ld_unit_zero (S := S1x256) zeros2, View.ld_unit_zero (S := S16x128x256) zeros3]
  funext y
  obtain ⟨r, u, v, a, rfl⟩ : ∃ (r : Fin 16) (u : Fin 1) (v : Fin 128) (a : Fin 256), y = ix4 r u v a :=
    ⟨y 0, y 1, y 2, y 3, eq_ix4 y⟩
  rw [View.read_apply, out_emb t r u v a, Cert.Fpn.regionFn_apply]
  refine (pay_at (iblk m c 0 t) (iblk m c 1 t) (iblk m c 2 t) (iblk m c 3 t) r u v a).trans ?_
  rw [xw_blk_at m c t r v a, br_blk_at m c t 0 a]
  refine congrArg (fun s => s + V m c main_v8 (ix2 (0 : Fin 1) a) + V m c main_v3 (ix3 (arrRow t r) v a)) ?_
  exact Finset.sum_congr rfl fun k _ => by rw [sk_blk_at m c t r u v k, wt_blk_at m c t k a]

/-- An index of the result array is in point t's block iff each coordinate is in the block's range on its axis. -/
theorem mem_blk (t : Fin cfg0.N) (i : S256x2x128x256.Idx) :
    i ∈ ((cfg0.win 4).blk t).view.set ↔ ∀ a : Fin 4, win0_4.index t a * S16x1x128x256.size a ≤ (i a).val
      ∧ (i a).val < win0_4.index t a * S16x1x128x256.size a + S16x1x128x256.size a := by
  show i ∈ ((View.whole main_v9).slice (win0_4.rect t)).set ↔ _
  rw [View.set_slice_whole, Rect.mem_set_unit]
  exact Iff.rfl

/-- The 32 blocks tile the result array: row R, slot e lies in the block of the point with row block R / 16 and
    slot e, and every point writes its block back. -/
theorem cover (i : S256x2x128x256.Idx) :
    ∃ t : Fin cfg0.N, (cfg0.win 4).flush t = true ∧ i ∈ ((cfg0.win 4).blk t).view.set := by
  have h0 : (i 0).val < 256 := (i 0).isLt
  have h1 : (i 1).val < 2 := (i 1).isLt
  have h2 : (i 2).val < 128 := (i 2).isLt
  have h3 : (i 3).val < 256 := (i 3).isLt
  obtain ⟨t, ht⟩ := idx_onto ⟨(i 0).val / 16, by omega⟩ ⟨(i 1).val, h1⟩
  have q0 : win0_4.index t (0 : Fin 4) = (i 0).val / 16 := congrFun ht 0
  have q1 : win0_4.index t (1 : Fin 4) = (i 1).val := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 16 ≤ (i 0).val ∧ (i 0).val < win0_4.index t (0 : Fin 4) * 16 + 16; omega
  | ⟨1, _⟩ => show win0_4.index t (1 : Fin 4) * 1 ≤ (i 1).val ∧ (i 1).val < win0_4.index t (1 : Fin 4) * 1 + 1; omega
  | ⟨2, _⟩ => show win0_4.index t (2 : Fin 4) * 128 ≤ (i 2).val ∧ (i 2).val < win0_4.index t (2 : Fin 4) * 128 + 128; omega
  | ⟨3, _⟩ => show win0_4.index t (3 : Fin 4) * 256 ≤ (i 3).val ∧ (i 3).val < win0_4.index t (3 : Fin 4) * 256 + 256; omega

/-- The result array after the region is the specification's function of the four operand arrays as the region
    finds them. -/
theorem final (c : Dev nD) :
    (dats m 0 c).arrAt 4 cfg0.N = Cert.Fpn.regionFn (V m c main_v3) (V m c main_v5) (V m c main_v7) (V m c main_v8) :=
  (dats m 0 c).arrAt_eq_of_cover 4 _ (fun t _ => flushed_eq m c t) cover

end Cert.ReferenceIdeal.FpnBlocks
end
-- ==== Proof.RefRun.lean ====
/-
  The second program's run: its result is the feature-pyramid block of the four arguments.

  The program lays the arguments out channels-last — the low-resolution array with every column repeated twice and
  batch and row flattened into 256 rows, the skip array with the two output rows of a low-resolution row as a slot
  axis —, runs its region, which leaves `(Σ_k skip · weightᵀ + bias) + x` in that layout, and lays the result back:
  entry (n, a, h, v) of the result is entry (64 n + h / 2, h % 2, v, a) of the region's array. Row 64 n + h / 2 is batch
  n, low-resolution row h / 2, and its slot h % 2 is output row 2 (h / 2) + h % 2 = h; so the entry is the block's
  value at (n, a, h, v) with the three summands in another order and each product's factors swapped.
-/
import proofs.«130636_g2000605795771744_pallasbulk_1000_2_alg».proof.Proof.Spec
import proofs.«130636_g2000605795771744_pallasbulk_1000_2_alg».proof.Proof.RefHost
import proofs.«130636_g2000605795771744_pallasbulk_1000_2_alg».proof.Proof.RefRegion
import proofs.«130636_g2000605795771744_pallasbulk_1000_2_alg».proof.Proof.Gen.ReferenceIdeal.Frame
import Idealize.ShloMosaic.Lib.ValueIdx
import Idealize.ShloMosaic.Lib.Pipeline.Value

noncomputable section

namespace Cert.ReferenceIdeal.FpnValue

open Cert.ReferenceIdeal Cert.ReferenceIdeal.Gen Idealize.ShloMosaic Idealize.ShloMosaic.TcCoe Idealize.SL.Sem Idealize.ShloMosaic.ValueIdx
open Cert.Fpn (rowN rowH rowS outR outE half)
open scoped BigOperators

variable (m : (ℓ : Loc nD τ sig) → Buf (Elt Ideal) ℓ) (ρ : Dev nD → PrngReg)

/-- The program's result array, after the two lines that follow the region, is the feature-pyramid block. -/
theorem result_eq (c : Dev nD) :
    (Pipeline.afterTail₀ cfgs (dats m) 0 (V0 m) [hostOps1] c main_v11 : S4x256x128x128.Idx → EReal)
      = Cert.Fpn.fpn (m ((c : Thread nD τ).loc main_arg0)) (m ((c : Thread nD τ).loc main_arg1))
          (m ((c : Thread nD τ).loc main_arg2)) (m ((c : Thread nD τ).loc main_arg3)) := by
  funext i
  obtain ⟨n, a, h, v, rfl⟩ : ∃ (n : Fin 4) (a : Fin 256) (h v : Fin 128), i = ix4 n a h v := ⟨i 0, i 1, i 2, i 3, eq_ix4 i⟩
  rw [Cert.ReferenceIdeal.FpnHost.tail_at, Cert.ReferenceIdeal.FpnBlocks.final, Cert.Fpn.regionFn_apply, Cert.Fpn.fpn_apply]
  rw [Cert.ReferenceIdeal.FpnHost.up_at, Cert.ReferenceIdeal.FpnHost.bias_at,
    Finset.sum_congr rfl fun k _ => by
      rw [Cert.ReferenceIdeal.FpnHost.skip_at m c (outR n h) (outE h) v k, Cert.ReferenceIdeal.FpnHost.weightT_at m c k a]]
  have e1 : rowN (outR n h) = n := Fin.ext (by show (n.val * 64 + h.val / 2) / 64 = n.val; have := h.isLt; omega)
  have e2 : rowS (outR n h) (outE h) = h :=
    Fin.ext (by show 2 * ((n.val * 64 + h.val / 2) % 64) + h.val % 2 = h.val; have := h.isLt; omega)
  have e3 : rowH (outR n h) = half h := Fin.ext (by show (n.val * 64 + h.val / 2) % 64 = h.val / 2; have := h.isLt; omega)
  rw [e1, e2, e3]
  unfold Cert.Fpn.fpnAt
  exact Cert.Fpn.conv_bias_up
    (fun k => (m ((c : Thread nD τ).loc main_arg2) : S256x256x1x1.Idx → EReal) (ix4 a k (0 : Fin 1) (0 : Fin 1)))
    (fun k => (m ((c : Thread nD τ).loc main_arg1) : S4x256x128x128.Idx → EReal) (ix4 n k h v)) _ _

/-- THE RUN: every weakly fair execution ends with the result array at the feature-pyramid block of the four arguments,
    the arguments unchanged (none of them is a window's array: the region and the lines around it leave them alone). -/
theorem run : θ_run (defs (F := Ideal)) (onTc (τ := τ) (main (F := Ideal))) ⟨m, fun _ => 0, ρ⟩ fun r => ∀ c : Dev nD,
      r.2.mem ((c : Thread nD τ).loc main_v11) = Cert.Fpn.fpn (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.ReferenceIdeal.FpnValue

end
-- ==== Proof.lean ====
/-
  The certificate of a feature-pyramid block: out = upsample₂ₓ(x) + conv₁ₓ₁(skip) + bias, in NCHW, for
  x : [4, 256, 64, 64], skip : [4, 256, 128, 128], weight : [256, 256, 1, 1], bias : [256].

  On the extended reals both programs end with the result array at

      out[n, c, h, v] = Σ_k weight[c, k, 0, 0] · skip[n, k, h, v] + (x[n, c, h / 2, v / 2] + bias[c])

  (`Cert.Fpn.fpn`, Proof/Spec.lean). The kernel stays in NCHW: per grid point it multiplies the weight matrix with each
  of 16 skip rows, and gets the upsampled row as a product of the low-resolution row with a 0/1 matrix that has a single
  one per column — that product is the one entry the column selects, every other term being `_ · 0 = 0`, which holds on
  the extended reals for any factor, so the precondition is not used (Proof/KernelBody.lean: the body's sixteen stores as
  one block function; Proof/KernelHost.lean: the three host-made operands read back to the arguments; Proof/KernelBlocks.lean:
  the 32 blocks tile the result, and the run). The reference works channels-last on arrays the host lays out before its
  region and lays back after it, adding the bias to the convolution first and the repeated low-resolution entry last
  (Proof/RefHost.lean: the host lines before and after the region at an index; Proof/RefRegion.lean: the region's result
  array; Proof/RefRun.lean: the run). The two arrangements of the entry are equal because addition and multiplication of
  extended reals are commutative and associative. The three frames are the generated ones; the idealization rewrote
  nothing, so `preserves` is trivial.
-/
import proofs.«130636_g2000605795771744_pallasbulk_1000_2_alg».proof.Defs
import proofs.«130636_g2000605795771744_pallasbulk_1000_2_alg».proof.Proof.Gen.Kernel
import proofs.«130636_g2000605795771744_pallasbulk_1000_2_alg».proof.Proof.Gen.Kernel.Skeleton
import proofs.«130636_g2000605795771744_pallasbulk_1000_2_alg».proof.Proof.Gen.Kernel.Launch
import proofs.«130636_g2000605795771744_pallasbulk_1000_2_alg».proof.Proof.Gen.Kernel.Points
import proofs.«130636_g2000605795771744_pallasbulk_1000_2_alg».proof.Proof.Gen.Kernel.Frame
import proofs.«130636_g2000605795771744_pallasbulk_1000_2_alg».proof.Proof.Gen.KernelIdeal
import proofs.«130636_g2000605795771744_pallasbulk_1000_2_alg».proof.Proof.Gen.KernelIdeal.Skeleton
import proofs.«130636_g2000605795771744_pallasbulk_1000_2_alg».proof.Proof.Gen.KernelIdeal.Launch
import proofs.«130636_g2000605795771744_pallasbulk_1000_2_alg».proof.Proof.Gen.KernelIdeal.Points
import proofs.«130636_g2000605795771744_pallasbulk_1000_2_alg».proof.Proof.Gen.KernelIdeal.Frame
import proofs.«130636_g2000605795771744_pallasbulk_1000_2_alg».proof.Proof.Gen.ReferenceIdeal
import proofs.«130636_g2000605795771744_pallasbulk_1000_2_alg».proof.Proof.Gen.ReferenceIdeal.Skeleton
import proofs.«130636_g2000605795771744_pallasbulk_1000_2_alg».proof.Proof.Gen.ReferenceIdeal.Launch
import proofs.«130636_g2000605795771744_pallasbulk_1000_2_alg».proof.Proof.Gen.ReferenceIdeal.Points
import proofs.«130636_g2000605795771744_pallasbulk_1000_2_alg».proof.Proof.Gen.ReferenceIdeal.Frame
import proofs.«130636_g2000605795771744_pallasbulk_1000_2_alg».proof.Proof.Gen.Pre_finite_inputs
import proofs.«130636_g2000605795771744_pallasbulk_1000_2_alg».proof.Proof.Gen.KernelIdeal.Value
import proofs.«130636_g2000605795771744_pallasbulk_1000_2_alg».proof.Proof.KernelBlocks
import proofs.«130636_g2000605795771744_pallasbulk_1000_2_alg».proof.Proof.RefRun
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference read on the extended reals. -/
theorem frame_referenceIdeal : Cert.frame_ReferenceIdeal := fun m ρ _ => Cert.ReferenceIdeal.Gen.frame m ρ

/-- The idealized kernel is the kernel's own text read on the extended reals: no rewrite to account for. -/
theorem preserves : Cert.preserves_Kernel_KernelIdeal := trivial

/-- From memories that agree on the four arguments both programs end with the result array at the feature-pyramid block
    of those arguments, and with the arguments unchanged. -/
theorem algebraic : Cert.algebraic_KernelIdeal_ReferenceIdeal := by
  intro m ρ m' ρ' _ hagree
  refine ⟨_, Cert.KernelIdeal.FpnValue.run m ρ, ?_⟩
  refine (θ_run Cert.ReferenceIdeal.defs _ _).mono (fun r h c => ⟨(h c).1.trans ?_, (h c).2⟩)
    (Cert.ReferenceIdeal.FpnValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
